-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S_ : Shape := ⟨0, ![]⟩

class Facts : Prop where
  bcast_S_S16x256x112x112 : S_.BroadcastsInDim S16x256x112x112 (![] : Fin 0 → Fin S16x256x112x112.rank)
  reducesTo_S16x256x112x112_S_d0_1_2_3 : S16x256x112x112.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_
  bcast_S_S1x16 : S_.BroadcastsInDim S1x16 (![] : Fin 0 → Fin S1x16.rank)
  reducesTo_S1x16_S_d0_1 : S1x16.ReducesTo [0, 1] S_
  bcast_S_S16x8 : S_.BroadcastsInDim S16x8 (![] : Fin 0 → Fin S16x8.rank)
  reducesTo_S16x8_S_d0_1 : S16x8.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S1x8 .f32 := Host.absf main_arg4
  let main_cst_6 : FVec F S_ .f32 := constant S_ .f32 0x7F800000#32
  let main_v20 : FVec F S1x8 .f32 := broadcastInDim S1x8 ![] bcast_S_S1x8 main_cst_6
  let main_v21 : IVec S1x8 1 := cmpf .olt main_v19 main_v20
  let main_c_7 : IVec S_ 1 := constantI S_ 1 1#1
  let main_v22 : IVec S_ 1 := (fun x v => Host.reduce IntOp.andi x v reducesTo_S1x8_S_d0_1 h_S_) main_v21 main_c_7
  let main_v23 : IVec S_ 1 := andi main_v18 main_v22
  main_v23

def fn {F : FTy → Type} [FloatOps F] (main_arg0 : FVec F S16x256x112x112 .f32) (main_arg1 : FVec F S256x16 .f32) (main_arg2 : FVec F S1x16 .f32) (main_arg3 : FVec F S16x8 .f32) (main_arg4 : FVec F S1x8 .f32) : IVec S_ 1 :=
  let main_v0 : FVec F S16x256x112x112 .f32 := Host.absf main_arg0
  let main_cst : FVec F S_ .f32 := constant S_ .f32 0x7F800000#32
  let main_v1 : FVec F S16x256x112x112 .f32 := broadcastInDim S16x256x112x112 ![] bcast_S_S16x256x112x112 main_cst
  let main_v2 : IVec S16x256x112x112 1 := cmpf .olt main_v0 main_v1
  let main_c : IVec S_ 1 := constantI S_ 1 1#1
  let main_v3 : IVec S_ 1 := (fun x v => Host.reduce IntOp.andi x v reducesTo_S16x256x112x112_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S16x256x12544 : Shape := ⟨3, ![16, 256, 12544]⟩
abbrev S16x1x8 : Shape := ⟨3, ![16, 1, 8]⟩
abbrev S1x256x12544 : Shape := ⟨3, ![1, 256, 12544]⟩
abbrev S1x1x8 : Shape := ⟨3, ![1, 1, 8]⟩
abbrev S256x12544 : Shape := ⟨2, ![256, 12544]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S16x256x112x112, .f32⟩
  | .hbm, ⟨1, _⟩ => ⟨S256x16, .f32⟩
  | .hbm, ⟨2, _⟩ => ⟨S1x16, .f32⟩
  | .hbm, ⟨3, _⟩ => ⟨S16x8, .f32⟩
  | .hbm, ⟨4, _⟩ => ⟨S1x8, .f32⟩
  | .hbm, ⟨5, _⟩ => ⟨S16x256x12544, .f32⟩
  | .hbm, ⟨6, _⟩ => ⟨S16x1x8, .f32⟩
  | .hbm, ⟨7, _⟩ => ⟨S16x8, .f32⟩
  | .local _ .vmem, ⟨0, _⟩ => ⟨S1x256x12544, .f32⟩
  | .local _ .vmem, ⟨1, _⟩ => ⟨S1x256x12544, .f32⟩
  | .local _ .vmem, ⟨2, _⟩ => ⟨S256x16, .f32⟩
  | .local _ .vmem, ⟨3, _⟩ => ⟨S1x16, .f32⟩
  | .local _ .vmem, ⟨4, _⟩ => ⟨S16x8, .f32⟩
  | .local _ .vmem, ⟨5, _⟩ => ⟨S1x8, .f32⟩
  | .local _ .vmem, ⟨6, _⟩ => ⟨S1x1x8, .f32⟩
  | .local _ .vmem, ⟨7, _⟩ => ⟨S1x1x8, .f32⟩
  | _, _ => ⟨S16x256x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x256x112x112_S16x256x12544 : S16x256x112x112.ShapeCasts S16x256x12544
  inb_S1x256x12544_S1x256x12544_0_0_0 : ∀ a, (![0, 0, 0] : Fin 3 → Nat) a + S1x256x12544.size a ≤ S1x256x12544.size a
  h_S1x256x12544 : 0 < S1x256x12544.numel
  shapeCasts_S1x256x12544_S256x12544 : S1x256x12544.ShapeCasts S256x12544
  reduces_S256x12544_S256 : S256x12544.Reduces [1] S256
  shapeCasts_S256_S256x1 : S256.ShapeCasts S256x1
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  shapeCasts_S1x8_S1x1x8 : S1x8.ShapeCasts S1x1x8
  shapeCasts_S16x1x8_S16x8 : S16x1x8.ShapeCasts S16x8
  dot_S256x1_S256x16_S1x16_0_0_1_1_n_n_wf : DotDims.WF S256x1 S256x16 S1x16 [0] [0] [1] [1] [] []
  dot_S1x16_S16x8_S1x8_1_0_0_1_n_n_wf : DotDims.WF S1x16 S16x8 S1x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x12544.size a ≤ S16x256x12544.size a
  hwx0_0 : ∀ i : grid0.Coords, EltTy.bits .f32 = 32 ∨ (Rect.block (s := S16x256x12544) S1x256x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8.size a ≤ S16x1x8.size a
  hwx0_5 : ∀ i : grid0.Coords, EltTy.bits .f32 = 32 ∨ (Rect.block (s := S16x1x8) S1x1x8.size (cc0_transform_5 i) (hinb0_5 i)).WholeWords (EltTy.packing .f32)

variable [Facts₀]

def dot_S256x1_S256x16_S1x16_0_0_1_1_n_n : DotDims S256x1 S256x16 S1x16 where
  lhsContracting := [0]
  rhsContracting := [0]
  lhsNonContracting := [1]
  rhsNonContracting := [1]
  lhsBatch := []
  rhsBatch := []
  wf := dot_S256x1_S256x16_S1x16_0_0_1_1_n_n_wf
def dot_S1x16_S16x8_S1x8_1_0_0_1_n_n : DotDims S1x16 S16x8 S1x8 where
  lhsContracting := [1]
  rhsContracting := [0]
  lhsNonContracting := [0]
  rhsNonContracting := [1]
  lhsBatch := []
  rhsBatch := []
  wf := dot_S1x16_S16x8_S1x8_1_0_0_1_n_n_wf

abbrev win0_0 : Pipeline.Window sig grid0 :=
  Pipeline.Window.ofSpec (Memref.whole main_v0) S1x256x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x112x112 : Shape := ⟨4, ![16, 256, 112, 112]⟩
abbrev S256x16 : Shape := ⟨2, ![256, 16]⟩
abbrev S1x16 : Shape := ⟨2, ![1, 16]⟩
abbrev S16x8 : Shape := ⟨2, ![16, 8]⟩
abbrev S1x8 : Shape := ⟨2, ![1, 8]⟩
abbrev S16x256x12544 : Shape := ⟨3, ![16, 256, 12544]⟩
abbrev S16x256 : Shape := ⟨2, ![16, 256]⟩
abbrev S8x128x4096 : Shape := ⟨3, ![8, 128, 4096]⟩
abbrev S8x128 : Shape := ⟨2, ![8, 128]⟩
abbrev S8x128x128 : Shape := ⟨3, ![8, 128, 128]⟩
abbrev S16x16 : Shape := ⟨2, ![16, 16]⟩

abbrev nBuf : Space → Nat
  | .hbm => 8
  | .vmem => 11
  | .smem => 0
  | _ => 0

abbrev bufTy : (tb : Table) → Fin (tcTables nBuf tb) → BufTy
  | .hbm, ⟨0, _⟩ => ⟨S16x256x112x112, .f32⟩
  | .hbm, ⟨1, _⟩ => ⟨S256x16, .f32⟩
  | .hbm, ⟨2, _⟩ => ⟨S1x16, .f32⟩
  | .hbm, ⟨3, _⟩ => ⟨S16x8, .f32⟩
  | .hbm, ⟨4, _⟩ => ⟨S1x8, .f32⟩
  | .hbm, ⟨5, _⟩ => ⟨S16x256x12544, .f32⟩
  | .hbm, ⟨6, _⟩ => ⟨S16x256, .f32⟩
  | .hbm, ⟨7, _⟩ => ⟨S16x8, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x128x128, .f32⟩
  | .local _ .vmem, ⟨5, _⟩ => ⟨S16x256, .f32⟩
  | .local _ .vmem, ⟨6, _⟩ => ⟨S256x16, .f32⟩
  | .local _ .vmem, ⟨7, _⟩ => ⟨S1x16, .f32⟩
  | .local _ .vmem, ⟨8, _⟩ => ⟨S16x8, .f32⟩
  | .local _ .vmem, ⟨9, _⟩ => ⟨S1x8, .f32⟩
  | .local _ .vmem, ⟨10, _⟩ => ⟨S16x8, .f32⟩
  | _, _ => ⟨S16x256x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨3, ![2, 2, 4], ![false, false, false]⟩

def k0_cond4 (i : grid0.Coords) : BitVec 1 :=
  let arg2 : BitVec 32 := BitVec.ofNat 32 (i 2).val
  let c3_i32_4 : BitVec 32 := 3#32
  let v9 : BitVec 1 := Scalar.cmpi .eq arg2 c3_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S16x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

class Facts₀ : Prop where
  shapeCasts_S16x256x112x112_S16x256x12544 : S16x256x112x112.ShapeCasts S16x256x12544
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  inb_S8x128x4096_S8x128x128_0_0_0 : ∀ a, (![0, 0, 0] : Fin 3 → Nat) a + S8x128x128.size a ≤ S8x128x4096.size a
  inb_S8x128x4096_S8x128x128_0_0_128 : ∀ a, (![0, 0, 128] : Fin 3 → Nat) a + S8x128x128.size a ≤ S8x128x4096.size a
  inb_S8x128x4096_S8x128x128_0_0_256 : ∀ a, (![0, 0, 256] : Fin 3 → Nat) a + S8x128x128.size a ≤ S8x128x4096.size a
  inb_S8x128x4096_S8x128x128_0_0_384 : ∀ a, (![0, 0, 384] : Fin 3 → Nat) a + S8x128x128.size a ≤ S8x128x4096.size a
  inb_S8x128x4096_S8x128x128_0_0_512 : ∀ a, (![0, 0, 512] : Fin 3 → Nat) a + S8x128x128.size a ≤ S8x128x4096.size a
  inb_S8x128x4096_S8x128x128_0_0_640 : ∀ a, (![0, 0, 640] : Fin 3 → Nat) a + S8x128x128.size a ≤ S8x128x4096.size a
  inb_S8x128x4096_S8x128x128_0_0_768 : ∀ a, (![0, 0, 768] : Fin 3 → Nat) a + S8x128x128.size a ≤ S8x128x4096.size a
  inb_S8x128x4096_S8x128x128_0_0_896 : ∀ a, (![0, 0, 896] : Fin 3 → Nat) a + S8x128x128.size a ≤ S8x128x4096.size a
  inb_S8x128x4096_S8x128x128_0_0_1024 : ∀ a, (![0, 0, 1024] : Fin 3 → Nat) a + S8x128x128.size a ≤ S8x128x4096.size a
  inb_S8x128x4096_S8x128x128_0_0_1152 : ∀ a, (![0, 0, 1152] : Fin 3 → Nat) a + S8x128x128.size a ≤ S8x128x4096.size a
  inb_S8x128x4096_S8x128x128_0_0_1280 : ∀ a, (![0, 0, 1280] : Fin 3 → Nat) a + S8x128x128.size a ≤ S8x128x4096.size a
  inb_S8x128x4096_S8x128x128_0_0_1408 : ∀ a, (![0, 0, 1408] : Fin 3 → Nat) a + S8x128x128.size a ≤ S8x128x4096.size a
  inb_S8x128x4096_S8x128x128_0_0_1536 : ∀ a, (![0, 0, 1536] : Fin 3 → Nat) a + S8x128x128.size a ≤ S8x128x4096.size a
  inb_S8x128x4096_S8x128x128_0_0_1664 : ∀ a, (![0, 0, 1664] : Fin 3 → Nat) a + S8x128x128.size a ≤ S8x128x4096.size a
  inb_S8x128x4096_S8x128x128_0_0_1792 : ∀ a, (![0, 0, 1792] : Fin 3 → Nat) a + S8x128x128.size a ≤ S8x128x4096.size a
  inb_S8x128x4096_S8x128x128_0_0_1920 : ∀ a, (![0, 0, 1920] : Fin 3 → Nat) a + S8x128x128.size a ≤ S8x128x4096.size a
  inb_S8x128x4096_S8x128x128_0_0_2048 : ∀ a, (![0, 0, 2048] : Fin 3 → Nat) a + S8x128x128.size a ≤ S8x128x4096.size a
  inb_S8x128x4096_S8x128x128_0_0_2176 : ∀ a, (![0, 0, 2176] : Fin 3 → Nat) a + S8x128x128.size a ≤ S8x128x4096.size a
  inb_S8x128x4096_S8x128x128_0_0_2304 : ∀ a, (![0, 0, 2304] : Fin 3 → Nat) a + S8x128x128.size a ≤ S8x128x4096.size a
  inb_S8x128x4096_S8x128x128_0_0_2432 : ∀ a, (![0, 0, 2432] : Fin 3 → Nat) a + S8x128x128.size a ≤ S8x128x4096.size a
  inb_S8x128x4096_S8x128x128_0_0_2560 : ∀ a, (![0, 0, 2560] : Fin 3 → Nat) a + S8x128x128.size a ≤ S8x128x4096.size a
  inb_S8x128x4096_S8x128x128_0_0_2688 : ∀ a, (![0, 0, 2688] : Fin 3 → Nat) a + S8x128x128.size a ≤ S8x128x4096.size a
  inb_S8x128x4096_S8x128x128_0_0_2816 : ∀ a, (![0, 0, 2816] : Fin 3 → Nat) a + S8x128x128.size a ≤ S8x128x4096.size a
  inb_S8x128x4096_S8x128x128_0_0_2944 : ∀ a, (![0, 0, 2944] : Fin 3 → Nat) a + S8x128x128.size a ≤ S8x128x4096.size a
  inb_S8x128x4096_S8x128x128_0_0_3072 : ∀ a, (![0, 0, 3072] : Fin 3 → Nat) a + S8x128x128.size a ≤ S8x128x4096.size a
  inb_S8x128x4096_S8x128x128_0_0_3200 : ∀ a, (![0, 0, 3200] : Fin 3 → Nat) a + S8x128x128.size a ≤ S8x128x4096.size a
  inb_S8x128x4096_S8x128x128_0_0_3328 : ∀ a, (![0, 0, 3328] : Fin 3 → Nat) a + S8x128x128.size a ≤ S8x128x4096.size a
  inb_S8x128x4096_S8x128x128_0_0_3456 : ∀ a, (![0, 0, 3456] : Fin 3 → Nat) a + S8x128x128.size a ≤ S8x128x4096.size a
  inb_S8x128x4096_S8x128x128_0_0_3584 : ∀ a, (![0, 0, 3584] : Fin 3 → Nat) a + S8x128x128.size a ≤ S8x128x4096.size a
  inb_S8x128x4096_S8x128x128_0_0_3712 : ∀ a, (![0, 0, 3712] : Fin 3 → Nat) a + S8x128x128.size a ≤ S8x128x4096.size a
  inb_S8x128x4096_S8x128x128_0_0_3840 : ∀ a, (![0, 0, 3840] : Fin 3 → Nat) a + S8x128x128.size a ≤ S8x128x4096.size a
  inb_S8x128x4096_S8x128x128_0_0_3968 : ∀ a, (![0, 0, 3968] : Fin 3 → Nat) a + S8x128x128.size a ≤ S8x128x4096.size a
  reduces_S8x128x128_S8x128 : S8x128x128.Reduces [2] S8x128
  inb_S8x128_S8x128_0_0 : ∀ a, (![0, 0] : Fin 2 → Nat) a + S8x128.size a ≤ S8x128.size a
  h_S8x128 : 0 < S8x128.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  broadcasts_S1x16_S16x16 : S1x16.Broadcasts S16x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  broadcasts_S1x8_S16x8 : S1x8.Broadcasts S16x8
  dot_S16x256_S256x16_S16x16_1_0_0_1_n_n_wf : DotDims.WF S16x256 S256x16 S16x16 [1] [0] [0] [1] [] []
  dot_S16x16_S16x8_S16x8_1_0_0_1_n_n_wf : DotDims.WF S16x16 S16x8 S16x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x128x4096.size a < S16x256x12544.size a
  hwx0_0 : ∀ i : grid0.Coords, EltTy.bits .f32 = 32 ∨ (Rect.unit (s := S16x256x12544) (fun a => cc0_transform_0 i a * S8x128x4096.size a) (fun a => (Pipeline.Clip.of (cc0_transform_0 i a) (S8x128x4096.size a) (S16x256x12544.size a)).extent (S8x128x4096.size a)) fun a => Pipeline.Clip.inb (Pipeline.Clip.ok_of (hstart0_0 i a))).WholeWords (EltTy.packing .f32)
  hwxs0_0 : ∀ i : grid0.Coords, EltTy.bits .f32 = 32 ∨ (Rect.unit (s := S8x128x4096) (fun _ => 0) (fun a => (Pipeline.Clip.of (cc0_transform_0 i a) (S8x128x4096.size a) (S16x256x12544.size a)).extent (S8x128x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x256.size a
  hwx0_1 : ∀ i : grid0.Coords, EltTy.bits .f32 = 32 ∨ (Rect.block (s := S16x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S16x256.size a ≤ S16x256.size a
  hwx1_0 : ∀ i : grid1.Coords, EltTy.bits .f32 = 32 ∨ (Rect.block (s := S16x256) S16x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x16.size a ≤ S256x16.size a
  hwx1_1 : ∀ i : grid1.Coords, EltTy.bits .f32 = 32 ∨ (Rect.block (s := S256x16) S256x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S16x8.size a ≤ S16x8.size a
  hwx1_5 : ∀ i : grid1.Coords, EltTy.bits .f32 = 32 ∨ (Rect.block (s := S16x8) S16x8.size (cc1_transform_5 i) (hinb1_5 i)).WholeWords (EltTy.packing .f32)

variable [Facts₀]

def dot_S16x256_S256x16_S16x16_1_0_0_1_n_n : DotDims S16x256 S256x16 S16x16 where
  lhsContracting := [1]
  rhsContracting := [0]
  lhsNonContracting := [0]
  rhsNonContracting := [1]
  lhsBatch := []
  rhsBatch := []
  wf := dot_S16x256_S256x16_S16x16_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf

abbrev win0_0 : Pipeline.Window sig grid0 :=
  Pipeline.Window.ofSpecClip (Memref.whole main_v0) S8x128x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond4 i == 1#1) | ⟨_ + 2, h⟩ => absurd h (Nat.not_lt.2 (Nat.le_add_left _ _))

abbrev win1_0 : Pipeline.Window sig grid1 :=
  Pipeline.Window.ofSpec (Memref.whole main_v1) S16x256.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S16x8.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.Coeff.lean ====
/-
  What the two programs compute, written once over the extended reals.

  From an activation `x` (batch 16, 256 channels, 12544 spatial positions after flattening), weights `w1` (256 × 16),
  `w2` (16 × 8) and biases `b1`, `b2`, both programs produce the 16 × 8 array of coefficients

      2 · σ( relu( mean-pooled(x) · w1 + b1 ) · w2 + b2 ) − 1,       σ(t) = 1 / (1 + e^(−t)),

  where "mean-pooled" is the spatial SUM of a channel times one fixed number `scale` (the single-precision number
  nearest 1/12544, the same word in both programs, never evaluated here). The programs differ in WHERE that factor
  is applied: the fused program multiplies the contraction `Σ_c pooled(c) · w1(c, j)` by `scale` afterwards
  (`hiddenLate`), the two-stage program scales each pooled channel first and contracts afterwards (`hiddenEarly`).
  Moving a factor across a sum is distributivity, which on the extended reals fails at the infinities; it holds here
  because every entry of `x` and `w1` is a real number (`AllReal`), so every pooled sum and every product is real.
-/
import Idealize.ShloMosaic.PureOps.Ideal
import Idealize.ShloMosaic.PureOps.Ideal.Laws
import Idealize.ShloMosaic.Lib.ValueIdx

noncomputable section

namespace Cert.Coeff

open Idealize.ShloMosaic Idealize.ShloMosaic.ValueIdx

/-- The activation with its two spatial axes flattened, and the parameters' and the result's shapes. -/
abbrev SX3 : Shape := ⟨3, ![16, 256, 12544]⟩
abbrev SW1 : Shape := ⟨2, ![256, 16]⟩
abbrev SB1 : Shape := ⟨2, ![1, 16]⟩
abbrev SW2 : Shape := ⟨2, ![16, 8]⟩
abbrev SB2 : Shape := ⟨2, ![1, 8]⟩
abbrev SO : Shape := ⟨2, ![16, 8]⟩

/-- The mean's factor: the single-precision number nearest 1/12544 (one word, shared by both programs). -/
def scale : EReal := Ideal.ofBits .f32 0x38A72F05#32

/-- The spatial sum of channel `c` of batch row `n`. -/
def pooled (x : SX3.Idx → EReal) (n : Fin 16) (c : Fin 256) : EReal := ∑ l : Fin 12544, x (ix3 n c l)

/-- The first layer before its rectifier, the mean's factor applied AFTER the contraction over channels. -/
def hiddenLate (x : SX3.Idx → EReal) (w1 : SW1.Idx → EReal) (b1 : SB1.Idx → EReal) (n : Fin 16) (j : Fin 16) : EReal :=
  (∑ c : Fin 256, pooled x n c * w1 (ix2 c j)) * scale + b1 (ix2 0 j)

/-- The same with the factor applied to each pooled channel BEFORE the contraction. -/
def hiddenEarly (x : SX3.Idx → EReal) (w1 : SW1.Idx → EReal) (b1 : SB1.Idx → EReal) (n : Fin 16) (j : Fin 16) : EReal :=
  (∑ c : Fin 256, (pooled x n c * scale) * w1 (ix2 c j)) + b1 (ix2 0 j)

/-- The first layer before its rectifier, from an array `p` of already scaled pooled means (16 rows, 256 channels). -/
abbrev SP : Shape := ⟨2, ![16, 256]⟩
def hiddenOf (p : SP.Idx → EReal) (w1 : SW1.Idx → EReal) (b1 : SB1.Idx → EReal) (n : Fin 16) (j : Fin 16) : EReal :=
  (∑ c : Fin 256, p (ix2 n c) * w1 (ix2 c j)) + b1 (ix2 0 j)

/-- Scaling each pooled channel first is the first layer of the scaled pooled means. -/
theorem hiddenEarly_eq (x : SX3.Idx → EReal) (w1 : SW1.Idx → EReal) (b1 : SB1.Idx → EReal) :
    hiddenEarly x w1 b1 = hiddenOf (fun i => pooled x (i 0) (i 1) * scale) w1 b1 := rfl

/-- From the first layer's values `h`: rectify, apply the second layer, and map through `2 σ(·) − 1`. -/
def coeff (h : Fin 16 → Fin 16 → EReal) (w2 : SW2.Idx → EReal) (b2 : SB2.Idx → EReal) (n : Fin 16) (o : Fin 8) : EReal :=
  Ideal.ofBits .f32 0x40000000#32 * Ideal.logistic ((∑ j : Fin 16, max (h n j) 0 * w2 (ix2 j o)) + b2 (ix2 0 o))
    - Ideal.ofBits .f32 0x3F800000#32

/-- The result array with the factor applied late, and with it applied early. -/
def outLate (x : SX3.Idx → EReal) (w1 : SW1.Idx → EReal) (b1 : SB1.Idx → EReal) (w2 : SW2.Idx → EReal) (b2 : SB2.Idx → EReal) :
    SO.Idx → EReal := fun i => coeff (hiddenLate x w1 b1) w2 b2 (i 0) (i 1)
def outEarly (x : SX3.Idx → EReal) (w1 : SW1.Idx → EReal) (b1 : SB1.Idx → EReal) (w2 : SW2.Idx → EReal) (b2 : SB2.Idx → EReal) :
    SO.Idx → EReal := fun i => coeff (hiddenEarly x w1 b1) w2 b2 (i 0) (i 1)

/-- The activation as given (two spatial axes), and flattened: the same entries in row-major order. -/
abbrev SX4 : Shape := ⟨4, ![16, 256, 112, 112]⟩
theorem casts : SX4.ShapeCasts SX3 := by decide
def flat (x : SX4.Idx → EReal) : SX3.Idx → EReal := shapeCast SX3 x casts

/-- Every entry is a real number (neither infinity). -/
def AllReal {s : Shape} (v : s.Idx → EReal) : Prop := ∀ i, ∃ r : ℝ, v i = (r : EReal)

/-- Flattening keeps every entry real. -/
theorem AllReal.flat {x : SX4.Idx → EReal} (hx : AllReal x) : AllReal (flat x) := fun j => hx _

/-- With real activations and real first-layer weights the factor moves across the contraction. -/
theorem hidden_eq (x : SX3.Idx → EReal) (w1 : SW1.Idx → EReal) (b1 : SB1.Idx → EReal) (hx : AllReal x) (hw : AllReal w1)
    (n : Fin 16) (j : Fin 16) : hiddenLate x w1 b1 n j = hiddenEarly x w1 b1 n j := by
  -- the factor is a finite number, hence a real
  have hscale : ∃ r : ℝ, scale = (r : EReal) := by
    unfold scale
    simp [Ideal.ofBits, Ideal.ieee, -EReal.coe_mul]
  -- the coercion of reals into the extended reals commutes with finite sums
  have coe_sum : ∀ {ι : Type} (s : Finset ι) (f : ι → ℝ), ((∑ i ∈ s, f i : ℝ) : EReal) = ∑ i ∈ s, (f i : EReal) := by
    intro ι s f
    classical
    induction s using Finset.induction_on with
    | empty => simp
    | insert a s ha ih => rw [Finset.sum_insert ha, Finset.sum_insert ha, EReal.coe_add, ih]
  obtain ⟨s, hs⟩ := hscale
  choose xr hxr using hx
  choose wr hwr using hw
  -- each pooled sum is the coercion of a real sum
  have hp : ∀ c : Fin 256, pooled x n c = ((∑ l : Fin 12544, xr (ix3 n c l) : ℝ) : EReal) := by
    intro c
    unfold pooled
    rw [coe_sum]
    exact Finset.sum_congr rfl fun l _ => hxr _
  unfold hiddenLate hiddenEarly
  congr 1
  rw [hs]
  -- both sides are coercions of real expressions; in the reals the factor distributes over the sum
  simp only [hp, hwr, ← EReal.coe_mul, ← coe_sum]
  congr 1
  rw [Finset.sum_mul]
  exact Finset.sum_congr rfl fun c _ => by ring

/-- Hence the two result arrays are one. -/
theorem out_eq (x : SX3.Idx → EReal) (w1 : SW1.Idx → EReal) (b1 : SB1.Idx → EReal) (w2 : SW2.Idx → EReal) (b2 : SB2.Idx → EReal)
    (hx : AllReal x) (hw : AllReal w1) : outLate x w1 b1 w2 b2 = outEarly x w1 b1 w2 b2 := by
  have h : hiddenLate x w1 b1 = hiddenEarly x w1 b1 := funext fun n => funext fun j => hidden_eq x w1 b1 hx hw n j
  unfold outLate outEarly
  rw [h]

end Cert.Coeff

end
-- ==== Proof.FusedValue.lean ====
/-
  The fused program's run with its result named, over the extended reals.
  One block of the body is the coefficient of one batch row: the lane sums are the pooled channels, the two products
  into zero accumulators are the sums over the 256 channels and the 16 hidden units, and the layout casts move no
  entry. The sixteen blocks are the rows of the [16,1,8] array, and the reshapes before and after the region are the
  flattening of the activation and the dropping of that array's unit axis.
-/
import proofs.«147069_g2000504122983038_pallasbulk_1167_2_alg».proof.Proof.Gen.KernelIdeal.Frame
import proofs.«147069_g2000504122983038_pallasbulk_1167_2_alg».proof.Proof.Coeff
import Idealize.ShloMosaic.PureOps.Ideal.Laws
import Idealize.ShloMosaic.Lib.Pipeline.Value
import Idealize.ShloMosaic.Lib.StableHlo.Run

noncomputable section

namespace Cert.KernelIdeal.Fused

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable (m : (ℓ : Loc nD τ sig) → Buf (Elt Ideal) ℓ) (ρ : Dev nD → PrngReg)

/-! ## The two contractions' index maps, coordinate by coordinate -/

private theorem lhs_D1_0 (j : S1x16.Idx) (k : dot_S256x1_S256x16_S1x16_0_0_1_1_n_n.contr.Idx) :
    (dot_S256x1_S256x16_S1x16_0_0_1_1_n_n.lhsIdx j k 0 : ℕ) = k ⟨0, by decide⟩ := by
  simp [DotDims.lhsIdx, dot_S256x1_S256x16_S1x16_0_0_1_1_n_n]; rfl
private theorem rhs_D1_0 (j : S1x16.Idx) (k : dot_S256x1_S256x16_S1x16_0_0_1_1_n_n.contr.Idx) :
    (dot_S256x1_S256x16_S1x16_0_0_1_1_n_n.rhsIdx j k 0 : ℕ) = k ⟨0, by decide⟩ := by
  simp [DotDims.rhsIdx, dot_S256x1_S256x16_S1x16_0_0_1_1_n_n]; rfl
private theorem rhs_D1_1 (j : S1x16.Idx) (k : dot_S256x1_S256x16_S1x16_0_0_1_1_n_n.contr.Idx) :
    (dot_S256x1_S256x16_S1x16_0_0_1_1_n_n.rhsIdx j k 1 : ℕ) = j 1 := by
  simp [DotDims.rhsIdx, dot_S256x1_S256x16_S1x16_0_0_1_1_n_n]; rfl

private theorem lhs_D2_1 (j : S1x8.Idx) (k : dot_S1x16_S16x8_S1x8_1_0_0_1_n_n.contr.Idx) :
    (dot_S1x16_S16x8_S1x8_1_0_0_1_n_n.lhsIdx j k 1 : ℕ) = k ⟨0, by decide⟩ := by
  simp [DotDims.lhsIdx, dot_S1x16_S16x8_S1x8_1_0_0_1_n_n]; rfl
private theorem rhs_D2_0 (j : S1x8.Idx) (k : dot_S1x16_S16x8_S1x8_1_0_0_1_n_n.contr.Idx) :
    (dot_S1x16_S16x8_S1x8_1_0_0_1_n_n.rhsIdx j k 0 : ℕ) = k ⟨0, by decide⟩ := by
  simp [DotDims.rhsIdx, dot_S1x16_S16x8_S1x8_1_0_0_1_n_n]; rfl
private theorem rhs_D2_1 (j : S1x8.Idx) (k : dot_S1x16_S16x8_S1x8_1_0_0_1_n_n.contr.Idx) :
    (dot_S1x16_S16x8_S1x8_1_0_0_1_n_n.rhsIdx j k 1 : ℕ) = j 1 := by
  simp [DotDims.rhsIdx, dot_S1x16_S16x8_S1x8_1_0_0_1_n_n]; rfl

/-! ## The two contractions read at an index -/

/-- A column [256,1] against [256,16] into the zero row: entry (0, j) is the sum over the 256 channels. -/
private theorem contract1_apply (p : FVec Ideal S256x1 .f32) (w : FVec Ideal S256x16 .f32) (j : Fin 16) :
    matmul (F := Ideal) dot_S256x1_S256x16_S1x16_0_0_1_1_n_n none p w (constant (F := Ideal) S1x16 .f32 0x00000000#32) (ix2 0 j)
      = ∑ c : Fin 256, p (ix2 c 0) * w (ix2 c j) := by
  refine (Ideal.matmul_constant_zero_apply _ _ _ _ _).trans ?_
  rw [← Equiv.sum_comp (contrEquiv1 dot_S256x1_S256x16_S1x16_0_0_1_1_n_n 256 rfl rfl).symm]
  refine Finset.sum_congr rfl fun c _ => ?_
  have hk := contrEquiv1_symm_val dot_S256x1_S256x16_S1x16_0_0_1_1_n_n 256 rfl rfl c
  congr 2
  · funext a; apply Fin.ext
    match a with
    | ⟨0, _⟩ => exact (lhs_D1_0 _ _).trans hk
    | ⟨1, _⟩ =>
      have h1 : (dot_S256x1_S256x16_S1x16_0_0_1_1_n_n.lhsIdx (ix2 0 j) ((contrEquiv1 dot_S256x1_S256x16_S1x16_0_0_1_1_n_n 256 rfl rfl).symm c) 1).val < 1 := Fin.isLt _
      show (dot_S256x1_S256x16_S1x16_0_0_1_1_n_n.lhsIdx (ix2 0 j) ((contrEquiv1 dot_S256x1_S256x16_S1x16_0_0_1_1_n_n 256 rfl rfl).symm c) 1).val = 0
      omega
  · funext a; apply Fin.ext
    match a with
    | ⟨0, _⟩ => exact (rhs_D1_0 _ _).trans hk
    | ⟨1, _⟩ => exact rhs_D1_1 _ _

/-- A row [1,16] against [16,8] into the zero row: entry (0, o) is the sum over the 16 hidden units. -/
private theorem contract2_apply (h : FVec Ideal S1x16 .f32) (w : FVec Ideal S16x8 .f32) (o : Fin 8) :
    matmul (F := Ideal) dot_S1x16_S16x8_S1x8_1_0_0_1_n_n none h w (constant (F := Ideal) S1x8 .f32 0x00000000#32) (ix2 0 o)
      = ∑ j : Fin 16, h (ix2 0 j) * w (ix2 j o) := by
  refine (Ideal.matmul_constant_zero_apply _ _ _ _ _).trans ?_
  rw [← Equiv.sum_comp (contrEquiv1 dot_S1x16_S16x8_S1x8_1_0_0_1_n_n 16 rfl rfl).symm]
  refine Finset.sum_congr rfl fun j _ => ?_
  have hk := contrEquiv1_symm_val dot_S1x16_S16x8_S1x8_1_0_0_1_n_n 16 rfl rfl j
  congr 2
  · funext a; apply Fin.ext
    match a with
    | ⟨0, _⟩ =>
      have h1 : (dot_S1x16_S16x8_S1x8_1_0_0_1_n_n.lhsIdx (ix2 0 o) ((contrEquiv1 dot_S1x16_S16x8_S1x8_1_0_0_1_n_n 16 rfl rfl).symm j) 0).val < 1 := Fin.isLt _
      show (dot_S1x16_S16x8_S1x8_1_0_0_1_n_n.lhsIdx (ix2 0 o) ((contrEquiv1 dot_S1x16_S16x8_S1x8_1_0_0_1_n_n 16 rfl rfl).symm j) 0).val = 0
      omega
    | ⟨1, _⟩ => exact (lhs_D2_1 _ _).trans hk
  · funext a; apply Fin.ext
    match a with
    | ⟨0, _⟩ => exact (rhs_D2_0 _ _).trans hk
    | ⟨1, _⟩ => exact rhs_D2_1 _ _

/-! ## The body's arithmetic at an index -/

/-- The pooled column: the block with its unit batch axis dropped, summed over the spatial axis, set as a [256,1] column;
    entry (c, 0) is the spatial sum of channel c. -/
private theorem pooledCol_apply (x0 : FVec Ideal S1x256x12544 .f32) (c : Fin 256) :
    shapeCast S256x1 (multiReduction (F := Ideal) .add [1] S256 (shapeCast S256x12544 x0 shapeCasts_S1x256x12544_S256x12544)
        0x00000000#32 reduces_S256x12544_S256 (.inl rfl) rfl) shapeCasts_S256_S256x1 (ix2 c 0)
      = ∑ l : Fin 12544, x0 (ix3 0 c l) := by
  refine (shapeCast_apply _ _ (ix2 c (0 : Fin 1)) (ix1 c) (by
    rw [Shape.rowMajor_val_one, Shape.rowMajor_val_two]; show c.val = c.val * 1 + 0; omega)).trans ?_
  refine (Ideal.multiReduction_add_single _ _ reduces_S256x12544_S256 _ _ (ix1 c)).trans ?_
  refine Finset.sum_congr rfl fun l _ => ?_
  refine shapeCast_apply _ _ _ (ix3 (0 : Fin 1) c l) (by
    rw [Shape.rowMajor_val_three, Shape.rowMajor_val_two]
    show (0 * 256 + c.val) * 12544 + l.val = c.val * 12544 + l.val
    omega)

/-- The body's result at entry (0, 0, o), from the block of one batch row and the whole parameters: the pooled sums
    contracted with the first weights, the mean's factor, the bias, the rectifier, the second contraction and bias, and
    the map t ↦ 2 σ(t) − 1. -/
private theorem payload_apply (x0 : Vec Ideal S1x256x12544 .f32) (w1 : Vec Ideal S256x16 .f32) (b1 : Vec Ideal S1x16 .f32)
    (w2 : Vec Ideal S16x8 .f32) (b2 : Vec Ideal S1x8 .f32) (o : Fin 8) :
    k0_pay1 (F := Ideal) x0 w1 b1 w2 b2 (ix3 0 0 o)
      = Ideal.ofBits .f32 0x40000000#32 * Ideal.logistic ((∑ j : Fin 16, max ((∑ c : Fin 256, (∑ l : Fin 12544, x0 (ix3 0 c l)) * w1 (ix2 c j))
          * Cert.Coeff.scale + b1 (ix2 0 j)) 0 * w2 (ix2 j o)) + b2 (ix2 0 o)) - Ideal.ofBits .f32 0x3F800000#32 := by
  unfold k0_pay1
  refine (shapeCast_apply _ _ (ix3 (0 : Fin 1) (0 : Fin 1) o) (ix2 (0 : Fin 1) o) (by
    rw [Shape.rowMajor_val_two, Shape.rowMajor_val_three]; show 0 * 8 + o.val = (0 * 1 + 0) * 8 + o.val; omega)).trans ?_
  refine (congrArg (fun z : EReal => Ideal.ofBits .f32 0x40000000#32 * Ideal.logistic (z + b2 (ix2 0 o)) - Ideal.ofBits .f32 0x3F800000#32)
    (contract2_apply _ _ o)).trans ?_
  refine congrArg (fun z : EReal => Ideal.ofBits .f32 0x40000000#32 * Ideal.logistic (z + b2 (ix2 0 o)) - Ideal.ofBits .f32 0x3F800000#32)
    (Finset.sum_congr rfl fun j _ => ?_)
  refine congrArg (fun z : EReal => z * w2 (ix2 j o)) ?_
  refine (congrArg (fun z : EReal => max (z * Cert.Coeff.scale + b1 (ix2 0 j)) (Ideal.ofBits .f32 0x00000000#32)) (contract1_apply _ _ j)).trans ?_
  refine (congrArg (fun z : EReal => max ((∑ c : Fin 256, shapeCast S256x1 (multiReduction (F := Ideal) .add [1] S256 (shapeCast S256x12544 x0 shapeCasts_S1x256x12544_S256x12544)
        0x00000000#32 reduces_S256x12544_S256 (.inl rfl) rfl) shapeCasts_S256_S256x1 (ix2 c 0) * w1 (ix2 c j)) * Cert.Coeff.scale + b1 (ix2 0 j)) z) Ideal.ofBits_zero_f32).trans ?_
  refine congrArg (fun z : EReal => max (z * Cert.Coeff.scale + b1 (ix2 0 j)) 0) (Finset.sum_congr rfl fun c _ => ?_)
  exact congrArg (fun z : EReal => z * w1 (ix2 c j)) (pooledCol_apply x0 c)

/-! ## One block's entry as a coefficient -/

/-- The body's result for the block of batch row n, at any entry of its [1,1,8] block: the coefficient of row n at the
    entry's last coordinate (the block of x is row n of the flattened activation; the parameters are whole). -/
private theorem block_entry (x0 : Vec Ideal S1x256x12544 .f32) (x1 : Vec Ideal S256x16 .f32) (x2 : Vec Ideal S1x16 .f32)
    (x3 : Vec Ideal S16x8 .f32) (x4 : Vec Ideal S1x8 .f32)
    (x : Cert.Coeff.SX3.Idx → EReal) (w1 : Cert.Coeff.SW1.Idx → EReal) (b1 : Cert.Coeff.SB1.Idx → EReal)
    (w2 : Cert.Coeff.SW2.Idx → EReal) (b2 : Cert.Coeff.SB2.Idx → EReal) (n : Fin 16)
    (h0 : ∀ (c : Fin 256) (l : Fin 12544), x0 (ix3 0 c l) = x (ix3 n c l)) (h1 : x1 = w1) (h2 : x2 = b1) (h3 : x3 = w2) (h4 : x4 = b2)
    (y : S1x1x8.Idx) :
    k0_pay1 (F := Ideal) x0 x1 x2 x3 x4 y = Cert.Coeff.coeff (Cert.Coeff.hiddenLate x w1 b1) w2 b2 n (y 2) := by
  subst h1 h2 h3 h4
  have hy0 : (y 0).val < 1 := (y 0).isLt
  have hy1 : (y 1).val < 1 := (y 1).isLt
  have hy : y = ix3 (0 : Fin 1) (0 : Fin 1) (y 2) := by
    funext a
    match a with
    | ⟨0, _⟩ => exact Fin.ext (by show (y 0).val = 0; omega)
    | ⟨1, _⟩ => exact Fin.ext (by show (y 1).val = 0; omega)
    | ⟨2, _⟩ => rfl
  refine (congrArg (k0_pay1 (F := Ideal) x0 x1 x2 x3 x4) hy).trans ?_
  refine (payload_apply x0 x1 x2 x3 x4 (y 2)).trans ?_
  unfold Cert.Coeff.coeff Cert.Coeff.hiddenLate Cert.Coeff.pooled
  simp only [h0]

/-! ## From the blocks to the array -/

private theorem hz3 : (![0, 0, 0] : Fin 3 → Nat) = fun _ => 0 := funext fun a => by fin_cases a <;> rfl
private theorem hz2 : (![0, 0] : Fin 2 → Nat) = fun _ => 0 := funext fun a => by fin_cases a <;> rfl

/-- The blocks' index maps over the grid: the activation's and the result's block index is the point on the batch
    axis and zero elsewhere; every parameter's is zero. -/
private theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The [16,1,8] array the region leaves, from the arrays the region finds. -/
private def blocksOut (x : Cert.Coeff.SX3.Idx → EReal) (w1 : Cert.Coeff.SW1.Idx → EReal) (b1 : Cert.Coeff.SB1.Idx → EReal)
    (w2 : Cert.Coeff.SW2.Idx → EReal) (b2 : Cert.Coeff.SB2.Idx → EReal) : S16x1x8.Idx → EReal :=
  fun i => Cert.Coeff.coeff (Cert.Coeff.hiddenLate x w1 b1) w2 b2 (i 0) (i 2)

/-- What point t writes back is block t of that array. -/
private theorem flushed_eq (c : Dev nD) (t : Fin cfg0.N) :
    (dats m 0 c).flushed 5 t = ((cfg0.win 5).blk t).view.read (Elt Ideal)
      (blocksOut (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero hz3]
  simp only [View.ld_unit_zero (S := S1x256x12544) hz3, View.ld_unit_zero (S := S256x16) hz2, View.ld_unit_zero (S := S1x16) hz2,
    View.ld_unit_zero (S := S16x8) hz2, View.ld_unit_zero (S := S1x8) hz2]
  obtain ⟨a00, a01, a02, a10, a11, a20, a21, a30, a31, a40, a41, a50, a51, a52⟩ := idx_facts t
  have htN : t.val < 16 := by have h : t.val < grid0.N := t.isLt; have := N_0; omega
  funext y
  show k0_pay1 (F := Ideal) (iblk m c 0 t) (iblk m c 1 t) (iblk m c 2 t) (iblk m c 3 t) (iblk m c 4 t) y
    = blocksOut (V m c main_v0) (V m c main_arg1) (V m c main_arg2) (V m c main_arg3) (V m c main_arg4) (((cfg0.win 5).blk t).view.emb y)
  have e0 : ((cfg0.win 5).blk t).view.emb y 0 = (⟨t.val, htN⟩ : Fin 16) :=
    Fin.ext (by show win0_5.index t (0 : Fin 3) * 1 + 1 * (y 0).val = t.val; have hy0 : (y 0).val < 1 := (y 0).isLt; omega)
  have e2 : ((cfg0.win 5).blk t).view.emb y 2 = y 2 :=
    Fin.ext (by show win0_5.index t (2 : Fin 3) * 8 + 1 * (y 2).val = (y 2).val; omega)
  refine (block_entry (iblk m c 0 t) (iblk m c 1 t) (iblk m c 2 t) (iblk m c 3 t) (iblk m c 4 t)
    (V m c main_v0) (V m c main_arg1) (V m c main_arg2) (V m c main_arg3) (V m c main_arg4) ⟨t.val, htN⟩ ?_ ?_ ?_ ?_ ?_ y).trans ?_
  · intro ch l
    show V m c main_v0 (((cfg0.win 0).blk t).view.emb (ix3 (0 : Fin 1) ch l)) = V m c main_v0 (ix3 (⟨t.val, htN⟩ : Fin 16) ch l)
    refine congrArg (V m c main_v0) (funext fun a => Fin.ext ?_)
    match a with
    | ⟨0, _⟩ => show win0_0.index t (0 : Fin 3) * 1 + 1 * 0 = t.val; omega
    | ⟨1, _⟩ => show win0_0.index t (1 : Fin 3) * 256 + 1 * ch.val = ch.val; omega
    | ⟨2, _⟩ => show win0_0.index t (2 : Fin 3) * 12544 + 1 * l.val = l.val; omega
  · funext j
    show V m c main_arg1 (((cfg0.win 1).blk t).view.emb j) = V m c main_arg1 j
    refine congrArg (V m c main_arg1) (funext fun a => Fin.ext ?_)
    match a with
    | ⟨0, _⟩ => show win0_1.index t (0 : Fin 2) * 256 + 1 * (j 0).val = (j 0).val; omega
    | ⟨1, _⟩ => show win0_1.index t (1 : Fin 2) * 16 + 1 * (j 1).val = (j 1).val; omega
  · funext j
    show V m c main_arg2 (((cfg0.win 2).blk t).view.emb j) = V m c main_arg2 j
    refine congrArg (V m c main_arg2) (funext fun a => Fin.ext ?_)
    match a with
    | ⟨0, _⟩ => show win0_2.index t (0 : Fin 2) * 1 + 1 * (j 0).val = (j 0).val; omega
    | ⟨1, _⟩ => show win0_2.index t (1 : Fin 2) * 16 + 1 * (j 1).val = (j 1).val; omega
  · funext j
    show V m c main_arg3 (((cfg0.win 3).blk t).view.emb j) = V m c main_arg3 j
    refine congrArg (V m c main_arg3) (funext fun a => Fin.ext ?_)
    match a with
    | ⟨0, _⟩ => show win0_3.index t (0 : Fin 2) * 16 + 1 * (j 0).val = (j 0).val; omega
    | ⟨1, _⟩ => show win0_3.index t (1 : Fin 2) * 8 + 1 * (j 1).val = (j 1).val; omega
  · funext j
    show V m c main_arg4 (((cfg0.win 4).blk t).view.emb j) = V m c main_arg4 j
    refine congrArg (V m c main_arg4) (funext fun a => Fin.ext ?_)
    match a with
    | ⟨0, _⟩ => show win0_4.index t (0 : Fin 2) * 1 + 1 * (j 0).val = (j 0).val; omega
    | ⟨1, _⟩ => show win0_4.index t (1 : Fin 2) * 8 + 1 * (j 1).val = (j 1).val; omega
  · exact (congrArg₂ (Cert.Coeff.coeff (Cert.Coeff.hiddenLate (V m c main_v0) (V m c main_arg1) (V m c main_arg2)) (V m c main_arg3) (V m c main_arg4)) e0 e2).symm

/-- An index of the [16,1,8] array is in point t's block iff each coordinate is in the block's range on its axis. -/
private theorem mem_blk (t : Fin cfg0.N) (i : S16x1x8.Idx) :
    i ∈ ((cfg0.win 5).blk t).view.set ↔ ∀ a : Fin 3, win0_5.index t a * S1x1x8.size a ≤ (i a).val
      ∧ (i a).val < win0_5.index t a * S1x1x8.size a + S1x1x8.size a := by
  show i ∈ ((View.whole main_v1).slice (win0_5.rect t)).set ↔ _
  rw [View.set_slice_whole, Rect.mem_set_unit]
  exact Iff.rfl

/-- Row n of the array is point n's block, so the sixteen blocks cover it and the array ends at the coefficients. -/
private theorem final (c : Dev nD) : (dats m 0 c).arrAt 5 cfg0.N
    = blocksOut (V m c main_v0) (V m c main_arg1) (V m c main_arg2) (V m c main_arg3) (V m c main_arg4) :=
  (dats m 0 c).arrAt_eq_of_cover 5 (blocksOut (V m c main_v0) (V m c main_arg1) (V m c main_arg2) (V m c main_arg3) (V m c main_arg4))
    (fun t _ => flushed_eq m c t) fun i => by
      have hi0 : (i 0).val < 16 := (i 0).isLt
      have hi1 : (i 1).val < 1 := (i 1).isLt
      have hi2 : (i 2).val < 8 := (i 2).isLt
      obtain ⟨t, ht⟩ : ∃ t : Fin cfg0.N, t.val = (i 0).val := ⟨⟨(i 0).val, by rw [show cfg0.N = 16 from N_0]; exact hi0⟩, rfl⟩
      obtain ⟨-, -, -, -, -, -, -, -, -, -, -, a50, a51, a52⟩ := idx_facts t
      refine ⟨t, flush0_5 t, ?_⟩
      rw [mem_blk]
      intro a
      match a with
      | ⟨0, _⟩ => show win0_5.index t (0 : Fin 3) * 1 ≤ (i 0).val ∧ (i 0).val < win0_5.index t (0 : Fin 3) * 1 + 1; omega
      | ⟨1, _⟩ => show win0_5.index t (1 : Fin 3) * 1 ≤ (i 1).val ∧ (i 1).val < win0_5.index t (1 : Fin 3) * 1 + 1; omega
      | ⟨2, _⟩ => show win0_5.index t (2 : Fin 3) * 8 ≤ (i 2).val ∧ (i 2).val < win0_5.index t (2 : Fin 3) * 8 + 8; omega

/-! ## The reshapes before and after the region -/

/-- The region finds the activation flattened: the reshape's term is the flattening. -/
private theorem V_main_v0_eq (c : Dev nD) :
    (V m c main_v0 : S16x256x12544.Idx → EReal) = Cert.Coeff.flat (m ((c.tc : Thread nD τ).loc main_arg0)) := by
  show StableHlo.after hostOps0 (fun b => m (c, b)) (Proc.devRef .tc main_v0) = _
  after_results
  rfl

/-- Dropping the unit axis of the [16,1,8] array of coefficients gives the [16,8] array of coefficients. -/
private theorem reshaped_eq (x : Cert.Coeff.SX3.Idx → EReal) (w1 : Cert.Coeff.SW1.Idx → EReal) (b1 : Cert.Coeff.SB1.Idx → EReal)
    (w2 : Cert.Coeff.SW2.Idx → EReal) (b2 : Cert.Coeff.SB2.Idx → EReal) :
    shapeCast S16x8 (blocksOut x w1 b1 w2 b2) shapeCasts_S16x1x8_S16x8 = Cert.Coeff.outLate x w1 b1 w2 b2 := by
  funext i
  refine (shapeCast_apply _ _ i (ix3 (⟨(i 0).val, (i 0).isLt⟩ : Fin 16) (0 : Fin 1) (⟨(i 1).val, (i 1).isLt⟩ : Fin 8)) (by
    rw [Shape.rowMajor_val_three, Shape.rowMajor_val_two]
    show ((i 0).val * 1 + 0) * 8 + (i 1).val = (i 0).val * 8 + (i 1).val
    omega)).trans ?_
  rfl

/-- After the lines that follow the region the result buffer holds the region's array with its unit axis dropped. -/
private theorem tail_eq (c : Dev nD) :
    Pipeline.afterTail₀ cfgs (dats m) 0 (V0 m) [hostOps1] c main_v2
      = shapeCast S16x8 ((dats m 0 c).arrAt 5 cfg0.N) shapeCasts_S16x1x8_S16x8 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 5
  funext i
  exact congrArg (fun A : S16x1x8.Idx → EReal => shapeCast S16x8 A shapeCasts_S16x1x8_S16x8 i) e

/-- So that buffer holds the coefficients, the factor applied late, of the flattened activation and the parameters as
    launched. -/
private theorem value_eq (c : Dev nD) :
    shapeCast S16x8 ((dats m 0 c).arrAt 5 cfg0.N) shapeCasts_S16x1x8_S16x8
      = Cert.Coeff.outLate (Cert.Coeff.flat (m ((c.tc : Thread nD τ).loc main_arg0))) (m ((c.tc : Thread nD τ).loc main_arg1))
          (m ((c.tc : Thread nD τ).loc main_arg2)) (m ((c.tc : Thread nD τ).loc main_arg3)) (m ((c.tc : Thread nD τ).loc main_arg4)) := by
  rw [final m c, reshaped_eq, V_main_v0_eq m c, V_main_arg1 m c, V_main_arg2 m c, V_main_arg3 m c, V_main_arg4 m c]

/-! ## The run -/

/-- Every weakly fair execution of the fused program ends with the result array at the coefficients with the mean's
    factor applied after the contraction over channels, of the flattened first argument and the parameters, and with
    every argument as launched. -/
theorem run_value : θ_run (defs (F := Ideal)) (onTc (τ := τ) (main (F := Ideal))) ⟨m, fun _ => 0, ρ⟩ (fun r => ∀ c : Dev nD,
      r.2.mem ((c.tc : Thread nD τ).loc main_v2)
        = Cert.Coeff.outLate (Cert.Coeff.flat (m ((c.tc : Thread nD τ).loc main_arg0))) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c =>
    ⟨(((h c).2 main_v2 (Pipeline.mem_restRefs_of main_v2 (by decide) (by decide))).trans (tail_eq m c)).trans (value_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Fused

end
-- ==== Proof.RefData.lean ====
/-
  The two-stage program's proof data: what its two kernel regions hold, point by point.

  Stage one pools: its grid is (2 batch tiles) × (2 channel tiles) × (4 spatial tiles), the spatial tile innermost, so
  point `t` works on spatial tile `t mod 4` of the (batch tile, channel tile) pair `t / 4`. A spatial tile is 4096
  lanes; the flattened spatial axis has 12544 = 3 · 4096 + 256 of them, so the fourth tile of every pair is cut at the
  array's end and only its first 256 lanes are the array's (`stg`: the staged tile, the part past the end filled with
  zeros that nothing reads). The kernel keeps a running 8 × 128 × 128 accumulator in a scratch buffer between points
  (`accAt`): reset and then increased by the 32 lane-chunks of the tile at spatial tile 0, increased by 32 chunks at
  tiles 1 and 2, by the 2 chunks inside the array at tile 3, where the lane sum of the accumulator times the mean's
  factor is stored as the pair's 8 × 128 block of pooled means.
  Stage two is one point: the whole 16 × 256 array of pooled means through the two small layers.
-/
import proofs.«147069_g2000504122983038_pallasbulk_1167_2_alg».proof.Proof.Gen.ReferenceIdeal.Regions
import proofs.«147069_g2000504122983038_pallasbulk_1167_2_alg».proof.Proof.Gen.ReferenceIdeal.Skeleton
import proofs.«147069_g2000504122983038_pallasbulk_1167_2_alg».proof.Proof.Gen.ReferenceIdeal.Points
import Idealize.ShloMosaic.Lib.Pipeline.Kit
import Idealize.ShloMosaic.Lib.ValueIdx

noncomputable section

namespace Cert.ReferenceIdeal.TwoStage

open Cert.ReferenceIdeal Cert.ReferenceIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-! ## Stage one: pooling -/

/-- Lanes `[128 j, 128 j + 128)` of a staged spatial tile. -/
def chunk (x0 : Vec F S8x128x4096 .f32) (j : Fin 32) : Vec F S8x128x128 .f32 := fun y =>
  x0 (ix3 (n0 := 8) (n1 := 128) (n2 := 4096) (y 0) (y 1)
    ⟨128 * j.val + (y 2).val, by have h : (y 2).val < 128 := (y 2).isLt; have := j.isLt; omega⟩)

/-- The accumulator `a` increased by all 32 lane-chunks of a staged tile, in the order the kernel adds them
    (chunks paired, each pair added to the running sum). -/
def accFull (a : Vec F S8x128x128 .f32) (x0 : Vec F S8x128x4096 .f32) : Vec F S8x128x128 .f32 :=
  k0_pay2
    (k0_pay9
      (k0_pay7
        (k0_pay5 a (chunk x0 0) (chunk x0 1) (chunk x0 2) (chunk x0 3) (chunk x0 4) (chunk x0 5) (chunk x0 6) (chunk x0 7))
        (k0_pay6 (chunk x0 8)) (chunk x0 9) (chunk x0 10) (chunk x0 11) (chunk x0 12) (chunk x0 13) (chunk x0 14) (chunk x0 15)
        (chunk x0 16) (chunk x0 17))
      (k0_pay8 (chunk x0 18)) (chunk x0 19) (chunk x0 20) (chunk x0 21) (chunk x0 22) (chunk x0 23) (chunk x0 24) (chunk x0 25)
      (chunk x0 26) (chunk x0 27))
    (k0_pay10 (chunk x0 28)) (chunk x0 29) (chunk x0 30) (chunk x0 31)

/-- The accumulator increased by the first two lane-chunks only (the cut tile's 256 lanes inside the array). -/
def accTail (a : Vec F S8x128x128 .f32) (x0 : Vec F S8x128x4096 .f32) : Vec F S8x128x128 .f32 :=
  k0_pay3 a (chunk x0 0) (chunk x0 1)

/-- The flattened activation as stage one finds it on core `c` (after the host reshape). -/
abbrev xflat (c : Dev nD) : Buf (Elt F) ((c : Thread nD τ).loc main_v0) := V1 m c main_v0

/-- The part of point `t`'s spatial tile that lies inside the array. -/
def tileIn (c : Dev nD) (t : Fin cfg0.N) : (win0_0.xblock (grid0.coords t)).Idx → Elt F .f32 :=
  (win0_0.blk t).view.read (Elt F) (xflat m c)

/-- The staged tile at point `t`: the part inside the array, zeros past the array's end. -/
def stg (c : Dev nD) (t : Fin cfg0.N) : Vec F S8x128x4096 .f32 :=
  win0_0.fill (grid0.coords t) (fun _ => Scalar.ofBits .f32 0#32) (tileIn m c t)

/-- The accumulator after point `n`. -/
def accAt (c : Dev nD) : (n : ℕ) → n < cfg0.N → Vec F S8x128x128 .f32
  | 0, hn => accFull k0_pay1 (stg m c ⟨0, hn⟩)
  | n + 1, hn =>
    if (n + 1) % 4 = 0 then accFull k0_pay1 (stg m c ⟨n + 1, hn⟩)
    else if (n + 1) % 4 = 3 then accTail (accAt c n (Nat.lt_of_succ_lt hn)) (stg m c ⟨n + 1, hn⟩)
    else accFull (accAt c n (Nat.lt_of_succ_lt hn)) (stg m c ⟨n + 1, hn⟩)

theorem accAt_reset (c : Dev nD) (t : Fin cfg0.N) (h : t.val % 4 = 0) :
    accAt m c t.val t.isLt = accFull k0_pay1 (stg m c t) := by
  obtain ⟨n, hn⟩ := t
  cases n with
  | zero => rfl
  | succ n => exact if_pos h

theorem accAt_more (c : Dev nD) (t : Fin cfg0.N) (h0 : ¬t.val % 4 = 0) (h3 : ¬t.val % 4 = 3) :
    accAt m c t.val t.isLt = accFull (accAt m c (t.val - 1) (Nat.lt_of_le_of_lt (Nat.sub_le _ _) t.isLt)) (stg m c t) := by
  obtain ⟨n, hn⟩ := t
  cases n with
  | zero => exact absurd (Nat.zero_mod _) h0
  | succ n => exact (if_neg h0).trans (if_neg h3)

theorem accAt_last (c : Dev nD) (t : Fin cfg0.N) (h3 : t.val % 4 = 3) :
    accAt m c t.val t.isLt = accTail (accAt m c (t.val - 1) (Nat.lt_of_le_of_lt (Nat.sub_le _ _) t.isLt)) (stg m c t) := by
  obtain ⟨n, hn⟩ := t
  cases n with
  | zero => exact absurd (show (0 : ℕ) % 4 = 3 from h3) (by decide)
  | succ n =>
    have h3' : (n + 1) % 4 = 3 := h3
    exact (if_neg (by omega)).trans (if_pos h3')

/-- The accumulator's scratch buffer, as the kernel is handed it. -/
abbrev scM : Memref sig .tc .vmem S8x128x128 .f32 := Memref.whole cc0_scratch0

/-- Stage two's staging buffers, at contents nothing names: what stage one's invariant carries besides the scratch. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f))

/-- Stage one's invariant before point `n`: at the first point the scratch at anything; later at what the point before
    left in it. -/
def PhiAcc (c : Dev nD) : (n : ℕ) → n ≤ cfg0.N → sProp 𝕄
  | 0, _ => iprop((∃ d, owns (c : Thread nD τ) scM fullShare d) ∗ otherScoped (F := F) c)
  | n + 1, hn => iprop(owns (c : Thread nD τ) scM fullShare (accAt m c n hn) ∗ otherScoped (F := F) c)

theorem PhiAcc_zero (c : Dev nD) (n : ℕ) (h : n ≤ cfg0.N) (hz : n = 0) :
    PhiAcc m c n h = iprop((∃ d, owns (c : Thread nD τ) scM fullShare d) ∗ otherScoped (F := F) c) := by
  subst hz; rfl

theorem PhiAcc_succ (c : Dev nD) (n : ℕ) (hn : n < cfg0.N) :
    PhiAcc m c (n + 1) hn = iprop(owns (c : Thread nD τ) scM fullShare (accAt m c n hn) ∗ otherScoped (F := F) c) := rfl

theorem PhiAcc_pos (c : Dev nD) (n : ℕ) (h : n ≤ cfg0.N) (hz : n ≠ 0) :
    PhiAcc m c n h = iprop(owns (c : Thread nD τ) scM fullShare (accAt m c (n - 1) (by omega)) ∗ otherScoped (F := F) c) := by
  cases n with
  | zero => exact absurd rfl hz
  | succ n => rfl

/-- Stage one's proof data on core `c`: the arrays as the region finds them; after the body at point `t` the tile's
    staging buffer at `stg` (stated, the window being cut, on the part inside the array only) and the pooled block's
    at the lane sum of the accumulator times the factor (consulted where the block is written back: spatial tile 3);
    the invariant `PhiAcc`; nothing owed; full shares. -/
def dat0 (c : Dev nD) : Dat τ (Elt F) Unit ℕ (UR sig nD τ) ℕ cfg0 c where
  A w := V1 m c (Pipeline.arrRef spec0 w)
  after w t := match w with
    | ⟨0, _⟩ => stg m c t
    | ⟨1, _⟩ => k0_pay4 (accAt m c t.val t.isLt)
  Φ t := PhiAcc m c t.val (Nat.le_of_lt_succ t.isLt)
  q _ := fullShare
  owed _ := 0

theorem dat0_after0 (c : Dev nD) (t : Fin cfg0.N) : (dat0 m c).after 0 t = stg m c t := by dsimp only [dat0]
theorem dat0_after1 (c : Dev nD) (t : Fin cfg0.N) : (dat0 m c).after 1 t = k0_pay4 (accAt m c t.val t.isLt) := by dsimp only [dat0]

/-- The pooled means stage one leaves in `main_v1`. -/
def pooledOut (c : Dev nD) : Buf (Elt F) ((c : Thread nD τ).loc main_v1) := (dat0 m c).arrAt 1 cfg0.N

/-! ## Stage two: the two small layers -/

/-- The unscoped buffers when stage two is entered: as stage one found them, with the pooled means in `main_v1`. -/
abbrev Vmid (c : Dev nD) : Valuation τ sig (Elt F) := Function.update (V1 m c) main_v1 (pooledOut m c)

/-- Stage two's input blocks (whole arrays: one grid point). -/
def blk1 (c : Dev nD) (w : Fin cfg1.W) : ((cfg1.win w).xblock (cfg1.grid.coords t1_0)).Idx → Elt F (cfg1.win w).elt :=
  ((cfg1.win w).blk t1_0).view.read (Elt F) (Vmid m c (Pipeline.arrRef spec1 w))

/-- Stage two's proof data: the arrays at `Vmid`; after the body each input's buffer at its block and the result's at
    the body's value of the five input blocks; no invariant beyond the scoped rest; nothing owed; full shares. -/
def dat1 (c : Dev nD) : Dat τ (Elt F) Unit ℕ (UR sig nD τ) ℕ cfg1 c where
  A w := Vmid m c (Pipeline.arrRef spec1 w)
  after w _ := match w with
    | ⟨0, _⟩ => blk1 m c 0
    | ⟨1, _⟩ => blk1 m c 1
    | ⟨2, _⟩ => blk1 m c 2
    | ⟨3, _⟩ => blk1 m c 3
    | ⟨4, _⟩ => blk1 m c 4
    | ⟨5, _⟩ => k1_pay1 (blk1 m c 0) (blk1 m c 1) (blk1 m c 2) (blk1 m c 3) (blk1 m c 4)
  Φ _ := Pipeline.scopedRest (Ix := Unit) (Name := ℕ) (U := UR sig nD τ) (Lvl := ℕ) (Val := Elt F) spec1 c
  q _ := fullShare
  owed _ := 0

/-- What stage two leaves in `main_v2`: the program's result. -/
def resultOut (c : Dev nD) : Buf (Elt F) ((c : Thread nD τ).loc main_v2) := (dat1 m c).arrAt 5 cfg1.N

/-- The family over both pipelines. -/
def pdats : (p : Fin 2) → (c : Dev nD) → Dat τ (Elt F) Unit ℕ (UR sig nD τ) ℕ (cfgs p) c
  | ⟨0, _⟩ => fun c => dat0 m c
  | ⟨1, _⟩ => fun c => dat1 m c

/-- What the regions leave in the buffers they may change, as the generated conditional frame's unknowns. -/
def outs : Outs (F := F) := fun J r c =>
  if h : r = main_v1 then h ▸ pooledOut m c
  else if h : r = main_v2 then h ▸ resultOut m c
  else V1 m c r

end Cert.ReferenceIdeal.TwoStage

end
-- ==== Proof.PoolRuns.lean ====
/-
  The pooling kernel's body, run once per control case on whole memrefs at symbolic contents.
  Each case's conditions on the third grid coordinate are closed scalar facts; the run then leaves the scratch (and, at
  the last spatial tile, the pooled block's buffer) at one covering store's payload, whose loads of the staged tile
  through the 8 × 128 × 128 box at lane offset 128 j are the tile's lane-chunks.
-/
import proofs.«147069_g2000504122983038_pallasbulk_1167_2_alg».proof.Proof.RefData
import Idealize.ShloMosaic.Lib.Tactic
import Idealize.ShloMosaic.Lib.Pipeline.Value

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The zero offsets of the scratch's whole-buffer box. -/
private theorem hz3 : (![0, 0, 0] : Fin S8x128x128.rank → Nat) = fun _ => 0 := by
  funext a; fin_cases a <;> rfl

/-- The zero offsets of the pooled block's whole-buffer box. -/
private theorem hz2 : (![0, 0] : Fin S8x128.rank → Nat) = fun _ => 0 := by
  funext a; fin_cases a <;> rfl

/-- A load of the staged tile through the 8 × 128 × 128 box at lane offset `128 j` is its `j`-th lane-chunk: the box's
    index map adds the offset to the lane coordinate and leaves the other two as they are. -/
private theorem ld_chunk (x0 : Vec F S8x128x4096 .f32) (j : Fin 32) (n : Nat) (hn : n = 128 * j.val)
    (inb : ∀ a, (![0, 0, n] : Fin 3 → Nat) a + S8x128x128.size a ≤ S8x128x4096.size a) :
    View.ld x0 (Rect.unit (s := S8x128x4096) ![0, 0, n] S8x128x128.size inb) = chunk x0 j := by
  subst hn
  funext y
  unfold chunk
  show x0 _ = x0 _
  congr 1
  funext a
  apply Fin.ext
  match a with
  | ⟨0, _⟩ => simp [Rect.unit, LoadRect.idx]
  | ⟨1, _⟩ => simp [Rect.unit, LoadRect.idx]
  | ⟨2, _⟩ => simp [Rect.unit, LoadRect.idx]

set_option maxHeartbeats 1000000 in
/-- Spatial tile 0: the scratch (holding anything) is reset, then increased by the tile's 32 lane-chunks; the pooled
    block's buffer is not touched. -/
theorem pool_run_reset (c : Dev nD) (i : grid0.Coords) (hk : (i 2).val = 0)
    (arg3 : Memref sig .tc .vmem S8x128x4096 .f32) (harg3 : arg3.IsWhole) (arg4 : Memref sig .tc .vmem S8x128 .f32) (harg4 : arg4.IsWhole)
    (arg5 : Memref sig .tc .vmem S8x128x128 .f32) (harg5 : arg5.IsWhole)
    (x0 : Vec F S8x128x4096 .f32) (xi1 : Vec F S8x128 .f32) (E : Set ℕ) (K : PUnit → sProp 𝕄) :
    iprop(owns (c : Thread nD τ) arg3 fullShare x0 ∗ owns (c : Thread nD τ) arg4 fullShare xi1 ∗ (∃ d, owns (c : Thread nD τ) arg5 fullShare d)
        ∗ (iprop(owns (c : Thread nD τ) arg3 fullShare x0 ∗ owns (c : Thread nD τ) arg4 fullShare xi1
              ∗ owns (c : Thread nD τ) arg5 fullShare (accFull k0_pay1 x0)) -∗ K ⟨⟩))
      ⊢ wp frame (wpE (defs₀ (F := F)) Variants.none c none) E (cc0__pool_kernel i arg3 harg3 arg4 harg4 arg5 harg5) K := by
  have h1 : (Scalar.cmpi .ne (Scalar.extui (Scalar.cmpi .eq (BitVec.ofNat 32 (i 2).val) 0#32) : BitVec 32) 0#32 = 1#1) := by
    rw [hk]; decide
  have h2 : (Scalar.cmpi .ne (Scalar.extui (Scalar.cmpi .slt (BitVec.ofNat 32 (i 2).val) 3#32) : BitVec 32) 0#32 = 1#1) := by
    rw [hk]; decide
  have h3 : ¬ (Scalar.cmpi .ne (Scalar.extui (Scalar.cmpi .eq (BitVec.ofNat 32 (i 2).val) 3#32) : BitVec 32) 0#32 = 1#1) := by
    rw [hk]; decide
  have h4 : ¬ (k0_cond4 i = 1#1) := by
    unfold k0_cond4; rw [hk]; decide
  simp only [cc0__pool_kernel_eq_skeleton]; unfold cc0__pool_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  -- the last store covers the scratch, so it holds that store's payload; the accumulator that payload read is the reset value read back
  rw [View.read_writes_eq_canon _ _ _ (fun y => ⟨_, List.mem_cons_self, View.mem_set_unit_zero hz3 inb_S8x128x128_S8x128x128_0_0_0 y⟩)]
  rw [View.canon_cons_unit_zero hz3]
  simp only [View.readAt_eq_ld, harg3.read_unread, View.readCov_unit_zero (S := S8x128x128) _ hz3,
    ld_chunk x0 0 0 rfl, ld_chunk x0 1 128 rfl, ld_chunk x0 2 256 rfl, ld_chunk x0 3 384 rfl, ld_chunk x0 4 512 rfl, ld_chunk x0 5 640 rfl, ld_chunk x0 6 768 rfl, ld_chunk x0 7 896 rfl, ld_chunk x0 8 1024 rfl, ld_chunk x0 9 1152 rfl, ld_chunk x0 10 1280 rfl, ld_chunk x0 11 1408 rfl, ld_chunk x0 12 1536 rfl, ld_chunk x0 13 1664 rfl, ld_chunk x0 14 1792 rfl, ld_chunk x0 15 1920 rfl, ld_chunk x0 16 2048 rfl, ld_chunk x0 17 2176 rfl, ld_chunk x0 18 2304 rfl, ld_chunk x0 19 2432 rfl, ld_chunk x0 20 2560 rfl, ld_chunk x0 21 2688 rfl, ld_chunk x0 22 2816 rfl, ld_chunk x0 23 2944 rfl, ld_chunk x0 24 3072 rfl, ld_chunk x0 25 3200 rfl, ld_chunk x0 26 3328 rfl, ld_chunk x0 27 3456 rfl, ld_chunk x0 28 3584 rfl, ld_chunk x0 29 3712 rfl, ld_chunk x0 30 3840 rfl, ld_chunk x0 31 3968 rfl]
  rfl

set_option maxHeartbeats 1000000 in
/-- Spatial tiles 1 and 2: the scratch, holding `xs0`, is increased by the tile's 32 lane-chunks. -/
theorem pool_run_more (c : Dev nD) (i : grid0.Coords) (hk : (i 2).val = 1 ∨ (i 2).val = 2)
    (arg3 : Memref sig .tc .vmem S8x128x4096 .f32) (harg3 : arg3.IsWhole) (arg4 : Memref sig .tc .vmem S8x128 .f32) (harg4 : arg4.IsWhole)
    (arg5 : Memref sig .tc .vmem S8x128x128 .f32) (harg5 : arg5.IsWhole)
    (x0 : Vec F S8x128x4096 .f32) (xi1 : Vec F S8x128 .f32) (xs0 : Vec F S8x128x128 .f32) (E : Set ℕ) (K : PUnit → sProp 𝕄) :
    iprop(owns (c : Thread nD τ) arg3 fullShare x0 ∗ owns (c : Thread nD τ) arg4 fullShare xi1 ∗ owns (c : Thread nD τ) arg5 fullShare xs0
        ∗ (iprop(owns (c : Thread nD τ) arg3 fullShare x0 ∗ owns (c : Thread nD τ) arg4 fullShare xi1
              ∗ owns (c : Thread nD τ) arg5 fullShare (accFull xs0 x0)) -∗ K ⟨⟩))
      ⊢ wp frame (wpE (defs₀ (F := F)) Variants.none c none) E (cc0__pool_kernel i arg3 harg3 arg4 harg4 arg5 harg5) K := by
  have h1 : ¬ (Scalar.cmpi .ne (Scalar.extui (Scalar.cmpi .eq (BitVec.ofNat 32 (i 2).val) 0#32) : BitVec 32) 0#32 = 1#1) := by
    rcases hk with hk | hk <;> (rw [hk]; decide)
  have h2 : (Scalar.cmpi .ne (Scalar.extui (Scalar.cmpi .slt (BitVec.ofNat 32 (i 2).val) 3#32) : BitVec 32) 0#32 = 1#1) := by
    rcases hk with hk | hk <;> (rw [hk]; decide)
  have h3 : ¬ (Scalar.cmpi .ne (Scalar.extui (Scalar.cmpi .eq (BitVec.ofNat 32 (i 2).val) 3#32) : BitVec 32) 0#32 = 1#1) := by
    rcases hk with hk | hk <;> (rw [hk]; decide)
  have h4 : ¬ (k0_cond4 i = 1#1) := by
    unfold k0_cond4; rcases hk with hk | hk <;> (rw [hk]; decide)
  simp only [cc0__pool_kernel_eq_skeleton]; unfold cc0__pool_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg5.eq_unread hfs0
  sl_exec (disch := first | exact h1 | exact h2 | exact h3 | exact h4)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_words
  -- the one store covers the scratch, so it holds that store's payload, over the old accumulator and the 32 chunks loaded
  rw [View.read_writes_eq_canon _ _ _ (fun y => ⟨_, List.mem_singleton_self _, View.mem_set_unit_zero hz3 inb_S8x128x128_S8x128x128_0_0_0 y⟩)]
  rw [View.canon_unit_zero hz3]
  simp only [View.readAt_eq_ld, harg3.read_unread, harg5.read_unread, View.ld_unit_zero (S := S8x128x128) hz3,
    ld_chunk x0 0 0 rfl, ld_chunk x0 1 128 rfl, ld_chunk x0 2 256 rfl, ld_chunk x0 3 384 rfl, ld_chunk x0 4 512 rfl, ld_chunk x0 5 640 rfl, ld_chunk x0 6 768 rfl, ld_chunk x0 7 896 rfl, ld_chunk x0 8 1024 rfl, ld_chunk x0 9 1152 rfl, ld_chunk x0 10 1280 rfl, ld_chunk x0 11 1408 rfl, ld_chunk x0 12 1536 rfl, ld_chunk x0 13 1664 rfl, ld_chunk x0 14 1792 rfl, ld_chunk x0 15 1920 rfl, ld_chunk x0 16 2048 rfl, ld_chunk x0 17 2176 rfl, ld_chunk x0 18 2304 rfl, ld_chunk x0 19 2432 rfl, ld_chunk x0 20 2560 rfl, ld_chunk x0 21 2688 rfl, ld_chunk x0 22 2816 rfl, ld_chunk x0 23 2944 rfl, ld_chunk x0 24 3072 rfl, ld_chunk x0 25 3200 rfl, ld_chunk x0 26 3328 rfl, ld_chunk x0 27 3456 rfl, ld_chunk x0 28 3584 rfl, ld_chunk x0 29 3712 rfl, ld_chunk x0 30 3840 rfl, ld_chunk x0 31 3968 rfl]
  rfl

set_option maxHeartbeats 1000000 in
/-- Spatial tile 3: the scratch, holding `xs0`, is increased by the tile's first two lane-chunks, and the pooled block's
    buffer (holding anything) is left at the lane sum of the new accumulator times the mean's factor. -/
theorem pool_run_last (c : Dev nD) (i : grid0.Coords) (hk : (i 2).val = 3)
    (arg3 : Memref sig .tc .vmem S8x128x4096 .f32) (harg3 : arg3.IsWhole) (arg4 : Memref sig .tc .vmem S8x128 .f32) (harg4 : arg4.IsWhole)
    (arg5 : Memref sig .tc .vmem S8x128x128 .f32) (harg5 : arg5.IsWhole)
    (x0 : Vec F S8x128x4096 .f32) (xs0 : Vec F S8x128x128 .f32) (E : Set ℕ) (K : PUnit → sProp 𝕄) :
    iprop(owns (c : Thread nD τ) arg3 fullShare x0 ∗ (∃ d, owns (c : Thread nD τ) arg4 fullShare d) ∗ owns (c : Thread nD τ) arg5 fullShare xs0
        ∗ (iprop(owns (c : Thread nD τ) arg3 fullShare x0 ∗ owns (c : Thread nD τ) arg4 fullShare (k0_pay4 (accTail xs0 x0))
              ∗ owns (c : Thread nD τ) arg5 fullShare (accTail xs0 x0)) -∗ K ⟨⟩))
      ⊢ wp frame (wpE (defs₀ (F := F)) Variants.none c none) E (cc0__pool_kernel i arg3 harg3 arg4 harg4 arg5 harg5) K := by
  have h1 : ¬ (Scalar.cmpi .ne (Scalar.extui (Scalar.cmpi .eq (BitVec.ofNat 32 (i 2).val) 0#32) : BitVec 32) 0#32 = 1#1) := by
    rw [hk]; decide
  have h2 : ¬ (Scalar.cmpi .ne (Scalar.extui (Scalar.cmpi .slt (BitVec.ofNat 32 (i 2).val) 3#32) : BitVec 32) 0#32 = 1#1) := by
    rw [hk]; decide
  have h3 : (Scalar.cmpi .ne (Scalar.extui (Scalar.cmpi .eq (BitVec.ofNat 32 (i 2).val) 3#32) : BitVec 32) 0#32 = 1#1) := by
    rw [hk]; decide
  have h4 : (k0_cond4 i = 1#1) := by
    unfold k0_cond4; rw [hk]; decide
  simp only [cc0__pool_kernel_eq_skeleton]; unfold cc0__pool_kernel_skel
  unfold owns
  iintro ⟨⟨%f0, %hf0, H0⟩, ⟨%d1, %f1, -, H1⟩, ⟨%fs0, %hfs0, HS0⟩, Hk⟩
  obtain rfl := harg3.eq_unread hf0; obtain rfl := harg5.eq_unread hfs0
  sl_exec (disch := first | exact h1 | exact h2 | exact h3 | exact h4)
  sl_step
  iapply Hk
  isplitl [H0]
  · iexists _; isplitr; · ipureintro; exact harg3.read_unread _
    iexact H0
  isplitl [H1]
  · iexists _; isplitr
    swap; · iexact H1
    ipureintro
    sl_unfold_words
    -- the one store covers the pooled block's buffer; its payload read the new accumulator back from the scratch
    rw [View.read_writes_eq_canon _ _ _ (fun y => ⟨_, List.mem_singleton_self _, View.mem_set_unit_zero hz2 inb_S8x128_S8x128_0_0 y⟩)]
    rw [View.canon_unit_zero hz2]
    simp only [View.readAt_eq_ld, harg3.read_unread, harg5.read_unread, View.ld_unit_zero (S := S8x128x128) hz3,
      View.readCov_unit_zero (S := S8x128x128) _ hz3, ld_chunk x0 0 0 rfl, ld_chunk x0 1 128 rfl]
    unfold accTail
    rfl
  iexists _; isplitr
  swap; · iexact HS0
  ipureintro
  sl_unfold_words
  -- the one store covers the scratch, so it holds that store's payload, over the old accumulator and chunks 0 and 1
  rw [View.read_writes_eq_canon _ _ _ (fun y => ⟨_, List.mem_singleton_self _, View.mem_set_unit_zero hz3 inb_S8x128x128_S8x128x128_0_0_0 y⟩)]
  rw [View.canon_unit_zero hz3]
  simp only [View.readAt_eq_ld, harg3.read_unread, harg5.read_unread, View.ld_unit_zero (S := S8x128x128) hz3,
    ld_chunk x0 0 0 rfl, ld_chunk x0 1 128 rfl]
  unfold accTail
  rfl

end Cert.ReferenceIdeal.TwoStage

end
-- ==== Proof.PoolObligation.lean ====
/-
  The pooling region's body obligation, from the three runs of its body.
  The runs state the accumulator at what the input tile's buffer actually holds, which past the array's end is anything;
  a tile inside the array fills the whole buffer, and of the cut tile the accumulator reads only the first two
  lane-chunks, the 256 lanes inside the array, so in every case it is the accumulator at the staged tile (zeros past the
  end). The input buffer is handed back stated on its part inside the array; the pooled block's buffer, at the points
  idle for it, as it was found.
-/
import proofs.«147069_g2000504122983038_pallasbulk_1167_2_alg».proof.Proof.PoolRuns

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ)

/-! ## The grid, point by point -/

/-- The spatial tile of point `t` is `t mod 4`. -/
private theorem coord2_eq : ∀ t : Fin cfg0.N, (grid0.coords t 2).val = t.val % 4 :=
  (by decide +kernel : ∀ t : Fin grid0.N, (grid0.coords t 2).val = t.val % 4)

/-- The input tile's window is never idle. -/
private theorem live0 : ∀ t : Fin cfg0.N, cfg0.idle 0 (grid0.coords t) = false := fun _ => rfl

/-- The pooled block's window is idle except at spatial tile 3, -/
private theorem idle1_of : ∀ t : Fin cfg0.N, ¬t.val % 4 = 3 → cfg0.idle 1 (grid0.coords t) = true :=
  (by decide +kernel : ∀ t : Fin grid0.N, ¬t.val % 4 = 3 → idle0 1 (grid0.coords t) = true)

private theorem live1_of : ∀ t : Fin cfg0.N, t.val % 4 = 3 → cfg0.idle 1 (grid0.coords t) = false :=
  (by decide +kernel : ∀ t : Fin grid0.N, t.val % 4 = 3 → idle0 1 (grid0.coords t) = false)

/-- and is written back only there. -/
private theorem noFlush1_of : ∀ t : Fin cfg0.N, ¬t.val % 4 = 3 → (cfg0.win 1).flush t = false := fun t h => by
  cases hf : (cfg0.win 1).flush t
  · rfl
  · exact absurd ((flush0_1 t).mp hf) h

/-- Spatial tiles 0, 1 and 2 lie inside the array: their transfers are not cut. -/
private theorem clip_none_of : ∀ t : Fin cfg0.N, ¬t.val % 4 = 3 → ∀ a, win0_0.clip (grid0.coords t) a = none :=
  (by decide +kernel : ∀ t : Fin grid0.N, ¬t.val % 4 = 3 → ∀ a, win0_0.clip (grid0.coords t) a = none)

/-- Spatial tile 3 is cut to its first 256 lanes (12544 = 3 · 4096 + 256), on the lane axis only. -/
private theorem xsize_last : ∀ t : Fin cfg0.N, t.val % 4 = 3 →
    win0_0.xsize (grid0.coords t) 0 = 8 ∧ win0_0.xsize (grid0.coords t) 1 = 128 ∧ win0_0.xsize (grid0.coords t) 2 = 256 :=
  (by decide +kernel : ∀ t : Fin grid0.N, t.val % 4 = 3 →
    win0_0.xsize (grid0.coords t) 0 = 8 ∧ win0_0.xsize (grid0.coords t) 1 = 128 ∧ win0_0.xsize (grid0.coords t) 2 = 256)

/-! ## What the body finds in the input tile's buffer, and what the accumulator reads of it -/

/-- The input tile's buffer was fetched into at this very point: the tile's part inside the array on the moved part,
    anything (`d`) past the array's end. -/
private theorem before0 (c : Dev nD) (t : Fin cfg0.N) (d) :
    (dat0 m c).before 0 t d = win0_0.fill (grid0.coords t) d (tileIn m c t) := by
  unfold Dat.before; rw [if_pos (fetch0_0 t)]; rfl

/-- An uncut tile fills the whole buffer: nothing of what the buffer held is left. -/
private theorem fill_indep (t : Fin cfg0.N) (h3 : ¬t.val % 4 = 3) {α : Type} (d d' : win0_0.block.Idx → α)
    (g : (win0_0.xblock (grid0.coords t)).Idx → α) :
    win0_0.fill (grid0.coords t) d g = win0_0.fill (grid0.coords t) d' g := by
  funext j
  have hm : win0_0.moved (grid0.coords t) j = true :=
    (win0_0.moved_iff _ j).mpr fun a => by
      have := (j a).isLt; unfold Window.xsize; rw [clip_none_of t h3 a]; exact this
  unfold Window.fill; rw [dif_pos hm, dif_pos hm]

/-- The cut tile fills the buffer's first 256 lanes, so its first two lane-chunks: those do not depend on what the
    buffer held. -/
private theorem chunk_fill_indep (t : Fin cfg0.N) (h3 : t.val % 4 = 3) (d d' : Vec F S8x128x4096 .f32)
    (g : (win0_0.xblock (grid0.coords t)).Idx → Elt F .f32) (j : Fin 32) (hj : j.val < 2) :
    chunk (win0_0.fill (grid0.coords t) d g) j = chunk (win0_0.fill (grid0.coords t) d' g) j := by
  funext y
  obtain ⟨x0, x1, x2⟩ := xsize_last t h3
  have hm : win0_0.moved (grid0.coords t) (ix3 (n0 := 8) (n1 := 128) (n2 := 4096) (y 0) (y 1)
      ⟨128 * j.val + (y 2).val, by have h : (y 2).val < 128 := (y 2).isLt; have := j.isLt; omega⟩) = true :=
    (win0_0.moved_iff _ _).mpr fun a => by
      match a with
      | ⟨0, _⟩ => exact lt_of_lt_of_eq (y 0).isLt x0.symm
      | ⟨1, _⟩ => exact lt_of_lt_of_eq (y 1).isLt x1.symm
      | ⟨2, _⟩ =>
        have h : (y 2).val < 128 := (y 2).isLt
        exact lt_of_lt_of_eq (show 128 * j.val + (y 2).val < 256 by omega) x2.symm
  unfold chunk Window.fill; rw [dif_pos hm, dif_pos hm]

/-- At spatial tiles 0, 1 and 2 the accumulator's increase is the same at the buffer's actual contents as at the
    staged tile; -/
private theorem accFull_fill (c : Dev nD) (t : Fin cfg0.N) (h3 : ¬t.val % 4 = 3) (a : Vec F S8x128x128 .f32) (d) :
    accFull a (win0_0.fill (grid0.coords t) d (tileIn m c t)) = accFull a (stg m c t) := by
  unfold stg; rw [fill_indep t h3 d]

/-- at spatial tile 3 too, since it reads the first two lane-chunks only. -/
private theorem accTail_fill (c : Dev nD) (t : Fin cfg0.N) (h3 : t.val % 4 = 3) (a : Vec F S8x128x128 .f32) (d) :
    accTail a (win0_0.fill (grid0.coords t) d (tileIn m c t)) = accTail a (stg m c t) := by
  unfold accTail stg
  rw [chunk_fill_indep t h3 d (fun _ => Scalar.ofBits .f32 0#32) _ 0 (by decide),
    chunk_fill_indep t h3 d (fun _ => Scalar.ofBits .f32 0#32) _ 1 (by decide)]
  rfl

/-! ## The obligation's two sides, window by window -/

/-- The invariant before point `t`, at `t` as a number. -/
private theorem Phi_castSucc (c : Dev nD) (t : Fin cfg0.N) :
    (dat0 m c).Φ t.castSucc = PhiAcc m c t.val (Nat.le_of_lt t.isLt) := by
  dsimp only [dat0]; simp only [Fin.coe_castSucc]

/-- The input tile's buffer is handed back stated on the part inside the array: the tile there, anything past the
    array's end (the staged tile cut back to the array is the tile's part inside it). -/
private theorem leaves0 (c : Dev nD) (t : Fin cfg0.N) :
    (dat0 m c).leaves 0 t
      = iprop(∃ d, owns (c : Thread nD τ) (st0_0 t) fullShare (win0_0.fill (grid0.coords t) d (tileIn m c t))) := by
  have hcut : win0_0.cut (grid0.coords t) ((dat0 m c).after 0 t) = tileIn m c t := by
    rw [dat0_after0]; exact win0_0.cut_fill _ _ _
  unfold Dat.leaves; rw [live0 t]
  change iprop(∃ d, owns (c : Thread nD τ) (st0_0 t) fullShare (win0_0.fill (grid0.coords t) d (win0_0.cut (grid0.coords t) ((dat0 m c).after 0 t)))) = _
  rw [hcut]

/-- The pooled block's buffer at spatial tile 3: at the lane sum of the accumulator times the factor. -/
private theorem leaves1_last (c : Dev nD) (t : Fin cfg0.N) (h3 : t.val % 4 = 3) :
    (dat0 m c).leaves 1 t = owns (c : Thread nD τ) (st0_1 t) fullShare ((dat0 m c).after 1 t) := by
  unfold Dat.leaves; rw [live1_of t h3]

/-- What the body is called with at point `t`, the windows one by one, -/
private def bodyPre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d)))

/-- and what it returns. -/
private def bodyPost0 (c : Dev nD) (t : Fin cfg0.N) : sProp 𝕄 :=
  iprop((dat0 m c).Φ t.succ ∗ (dat0 m c).owesAt () t.succ
    ∗ (dat0 m c).leaves 0 t
    ∗ (dat0 m c).leaves 1 t)

/-- The body at any point. By the spatial tile: at tile 3 the run that adds the two lane-chunks inside the array and
    stores the pooled block; at tile 0 the run that resets the accumulator; at tiles 1 and 2 the run that adds the 32
    lane-chunks. Each run states the accumulator at the input buffer's actual contents, which past the array's end are
    anything; the accumulator reads none of that (`accFull_fill`, `accTail_fill`), so it is the one the proof data
    names. The input buffer goes back as it came; the pooled block's, where the point is idle for it, likewise; the
    core owes nothing throughout. -/
private theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  rw [show (dat0 m c).owesAt () t.succ = (dat0 m c).owesAt () t.castSucc from rfl]
  rw [show (dat0 m c).Φ t.succ = PhiAcc m c (t.val + 1) t.isLt from rfl, PhiAcc_succ]
  rw [leaves0 m c t]
  have hN : t.val < 16 := lt_of_lt_of_eq t.isLt (show cfg0.N = 16 from N_0)
  by_cases h3 : t.val % 4 = 3
  · -- spatial tile 3
    have hz : t.val ≠ 0 := by omega
    rw [leaves1_last m c t h3, dat0_after1, accAt_last m c t h3, Phi_castSucc m c t, PhiAcc_pos m c _ _ hz]
    iintro ⟨⟨HS, Hr⟩, Ho, ⟨%d0, H0⟩, ⟨%d1, H1⟩⟩
    rw [before0 m c t d0]
    iapply (pool_run_last (F := F) c (grid0.coords t) ((coord2_eq t).trans h3) _ _ _ _ _ _
      (win0_0.fill (grid0.coords t) d0 (tileIn m c t))
      (accAt m c (t.val - 1) (Nat.lt_of_le_of_lt (Nat.sub_le _ _) t.isLt)) Set.univ _)
    isplitl [H0]; · iexact H0
    isplitl [H1]; · iexists _; iexact H1
    isplitl [HS]; · iexact HS
    iintro ⟨H0, H1, HS⟩
    rw [accTail_fill m c t h3]
    isplitl [HS Hr]
    · isplitl [HS]; · iexact HS
      iexact Hr
    isplitl [Ho]; · iexact Ho
    isplitl [H0]; · iexists d0; iexact H0
    iexact H1
  · rw [Dat.leaves_idle (dat0 m c) 1 t (idle1_of t h3) (noFlush1_of t h3)]
    by_cases h0 : t.val % 4 = 0
    · -- spatial tile 0
      rw [accAt_reset m c t h0]
      by_cases hz : t.val = 0
      · rw [Phi_castSucc m c t, PhiAcc_zero m c _ _ hz]
        iintro ⟨⟨HS, Hr⟩, Ho, ⟨%d0, H0⟩, ⟨%d1, H1⟩⟩
        rw [before0 m c t d0]
        iapply (pool_run_reset (F := F) c (grid0.coords t) ((coord2_eq t).trans h0) _ _ _ _ _ _
          (win0_0.fill (grid0.coords t) d0 (tileIn m c t)) ((dat0 m c).before 1 t d1) Set.univ _)
        isplitl [H0]; · iexact H0
        isplitl [H1]; · iexact H1
        isplitl [HS]; · iexact HS
        iintro ⟨H0, H1, HS⟩
        rw [accFull_fill m c t h3]
        isplitl [HS Hr]
        · isplitl [HS]; · iexact HS
          iexact Hr
        isplitl [Ho]; · iexact Ho
        isplitl [H0]; · iexists d0; iexact H0
        iexists d1; iexact H1
      · rw [Phi_castSucc m c t, PhiAcc_pos m c _ _ hz]
        iintro ⟨⟨HS, Hr⟩, Ho, ⟨%d0, H0⟩, ⟨%d1, H1⟩⟩
        rw [before0 m c t d0]
        iapply (pool_run_reset (F := F) c (grid0.coords t) ((coord2_eq t).trans h0) _ _ _ _ _ _
          (win0_0.fill (grid0.coords t) d0 (tileIn m c t)) ((dat0 m c).before 1 t d1) Set.univ _)
        isplitl [H0]; · iexact H0
        isplitl [H1]; · iexact H1
        isplitl [HS]; · iexists _; iexact HS
        iintro ⟨H0, H1, HS⟩
        rw [accFull_fill m c t h3]
        isplitl [HS Hr]
        · isplitl [HS]; · iexact HS
          iexact Hr
        isplitl [Ho]; · iexact Ho
        isplitl [H0]; · iexists d0; iexact H0
        iexists d1; iexact H1
    · -- spatial tiles 1 and 2
      have hz : t.val ≠ 0 := fun h => h0 (by rw [h])
      have hk : (grid0.coords t 2).val = 1 ∨ (grid0.coords t 2).val = 2 := by rw [coord2_eq t]; omega
      rw [accAt_more m c t h0 h3, Phi_castSucc m c t, PhiAcc_pos m c _ _ hz]
      iintro ⟨⟨HS, Hr⟩, Ho, ⟨%d0, H0⟩, ⟨%d1, H1⟩⟩
      rw [before0 m c t d0]
      iapply (pool_run_more (F := F) c (grid0.coords t) hk _ _ _ _ _ _
        (win0_0.fill (grid0.coords t) d0 (tileIn m c t)) ((dat0 m c).before 1 t d1)
        (accAt m c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      rw [accFull_fill m c t h3]
      isplitl [HS Hr]
      · isplitl [HS]; · iexact HS
        iexact Hr
      isplitl [Ho]; · iexact Ho
      isplitl [H0]; · iexists d0; iexact H0
      iexists d1; iexact H1

/-- At every grid point the pooling kernel's body takes stage one's invariant and staging buffers from what the proof
    data says they hold before the point to what it says they hold after. -/
theorem body_obligation0 (c : Dev nD) : BodyObligationLoose (dat0 m c) (defs₀ (F := F)) Variants.none () Set.univ := fun t => by
  rw [bigSep_W0, bigSep_W0]
  exact sound_body0 m c t

end Cert.ReferenceIdeal.TwoStage

end
-- ==== Proof.FcBody.lean ====
/-
  Stage two (the two small layers): its body obligation.
  The body loads its five input buffers whole, computes, and stores the result's buffer whole: one store through the
  whole-shape rectangle leaves its payload, so the result's buffer holds the body's value of what the five inputs'
  buffers held; and at the one grid point every input's buffer holds its array's block, being fetched there.
-/
import proofs.«147069_g2000504122983038_pallasbulk_1167_2_alg».proof.Proof.RefData
import Idealize.ShloMosaic.Lib.Pipeline.FrameBody
import Idealize.ShloMosaic.Lib.Pipeline.Value
import Idealize.ShloMosaic.Lib.Tactic

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ)

/-- The zero offsets of a rank-two rectangle, however spelt. -/
private theorem off2_zero : (![0, 0] : Fin 2 → Nat) = fun _ => 0 := funext fun a => by fin_cases a <;> rfl

/-- The one store's rectangle is the whole 16 × 8 shape, so it covers the buffer. -/
private theorem cover_out (p0 : Vec F S16x8 .f32) (y : S16x8.Idx) :
    ∃ pc ∈ ([⟨Rect.unit (s := S16x8) ![0, 0] S16x8.size inb_S16x8_S16x8_0_0, p0⟩] : List (View.Piece (Elt F) S16x8 .f32)), y ∈ pc.1.set :=
  ⟨_, List.mem_singleton_self _, View.mem_set_unit_zero off2_zero inb_S16x8_S16x8_0_0 y⟩

set_option maxHeartbeats 1000000 in
/-- The body on whole staging memrefs, the inputs' at contents `x0 … x4` and the result's at anything, runs to the
    continuation holding the inputs' as they were and the result's at the body's value of the five. -/
private theorem sound_fc (c : Dev nD) (E : Set ℕ) (i : grid1.Coords) (arg1 : Memref sig .tc .vmem S16x256 .f32) (harg1 : arg1.IsWhole) (arg2 : Memref sig .tc .vmem S256x16 .f32) (harg2 : arg2.IsWhole) (arg3 : Memref sig .tc .vmem S1x16 .f32) (harg3 : arg3.IsWhole) (arg4 : Memref sig .tc .vmem S16x8 .f32) (harg4 : arg4.IsWhole) (arg5 : Memref sig .tc .vmem S1x8 .f32) (harg5 : arg5.IsWhole) (arg6 : Memref sig .tc .vmem S16x8 .f32) (harg6 : arg6.IsWhole)
    (x0 : Vec F S16x256 .f32) (x1 : Vec F S256x16 .f32) (x2 : Vec F S1x16 .f32) (x3 : Vec F S16x8 .f32) (x4 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x1 x2 x3 x4)) -∗ K ⟨⟩))
      ⊢ wp frame (wpE (defs₀ (F := F)) Variants.none c none) E (cc1__fc_kernel i arg1 harg1 arg2 harg2 arg3 harg3 arg4 harg4 arg5 harg5 arg6 harg6) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover_out _), View.canon_unit_zero off2_zero]
  simp only [View.readAt_eq_ld, View.ld_unit_zero (S := S16x256) off2_zero, View.ld_unit_zero (S := S256x16) off2_zero,
    View.ld_unit_zero (S := S1x16) off2_zero, View.ld_unit_zero (S := S16x8) off2_zero, View.ld_unit_zero (S := S1x8) off2_zero]

/-! ## At the one grid point -/

/-- Every input is fetched at the point, so its staging buffer holds its array's block when the body runs. -/
private theorem before1_0 (c : Dev nD) (t : Fin cfg1.N) (d) : (dat1 m c).before 0 t d = blk1 m c 0 := by
  obtain rfl := fin_N1 t
  unfold Dat.before; rw [if_pos (fetch1_0 _)]; rfl
private theorem before1_1 (c : Dev nD) (t : Fin cfg1.N) (d) : (dat1 m c).before 1 t d = blk1 m c 1 := by
  obtain rfl := fin_N1 t
  unfold Dat.before; rw [if_pos (fetch1_1 _)]; rfl
private theorem before1_2 (c : Dev nD) (t : Fin cfg1.N) (d) : (dat1 m c).before 2 t d = blk1 m c 2 := by
  obtain rfl := fin_N1 t
  unfold Dat.before; rw [if_pos (fetch1_2 _)]; rfl
private theorem before1_3 (c : Dev nD) (t : Fin cfg1.N) (d) : (dat1 m c).before 3 t d = blk1 m c 3 := by
  obtain rfl := fin_N1 t
  unfold Dat.before; rw [if_pos (fetch1_3 _)]; rfl
private theorem before1_4 (c : Dev nD) (t : Fin cfg1.N) (d) : (dat1 m c).before 4 t d = blk1 m c 4 := by
  obtain rfl := fin_N1 t
  unfold Dat.before; rw [if_pos (fetch1_4 _)]; rfl

/-- What the body leaves, window by window. -/
private theorem after1_0 (c : Dev nD) (t : Fin cfg1.N) : (dat1 m c).after 0 t = blk1 m c 0 := by dsimp only [dat1]
private theorem after1_1 (c : Dev nD) (t : Fin cfg1.N) : (dat1 m c).after 1 t = blk1 m c 1 := by dsimp only [dat1]
private theorem after1_2 (c : Dev nD) (t : Fin cfg1.N) : (dat1 m c).after 2 t = blk1 m c 2 := by dsimp only [dat1]
private theorem after1_3 (c : Dev nD) (t : Fin cfg1.N) : (dat1 m c).after 3 t = blk1 m c 3 := by dsimp only [dat1]
private theorem after1_4 (c : Dev nD) (t : Fin cfg1.N) : (dat1 m c).after 4 t = blk1 m c 4 := by dsimp only [dat1]
private theorem after1_5 (c : Dev nD) (t : Fin cfg1.N) :
    (dat1 m c).after 5 t = k1_pay1 (blk1 m c 0) (blk1 m c 1) (blk1 m c 2) (blk1 m c 3) (blk1 m c 4) := by dsimp only [dat1]

/-- What the body is called with at point `t`: the invariant, what the core owes, and the six windows' buffers, -/
private def bodyPre1 (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d))
    ∗ (∃ d, owns (c : Thread nD τ) (st1_4 t) fullShare ((dat1 m c).before 4 t d))
    ∗ (∃ d, owns (c : Thread nD τ) (st1_5 t) fullShare ((dat1 m c).before 5 t d)))

/-- and what it returns. -/
private def bodyPost1 (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t)
    ∗ owns (c : Thread nD τ) (st1_4 t) fullShare ((dat1 m c).after 4 t)
    ∗ owns (c : Thread nD τ) (st1_5 t) fullShare ((dat1 m c).after 5 t))

/-- The body at the point: the inputs' buffers hold their blocks, so the body's triple applies; the invariant and
    what the core owes pass through unread. -/
private theorem sound_body1 (c : Dev nD) (t : Fin cfg1.N) :
    bodyPre1 m c t ⊢ wp frame (wpE (defs₀ (F := F)) Variants.none c none) Set.univ (bodyAt1 t) (fun _ => bodyPost1 m c t) := by
  unfold bodyPre1 bodyPost1 bodyAt1
  simp only [before1_0, before1_1, before1_2, before1_3, before1_4]
  rw [show (dat1 m c).Φ t.succ = (dat1 m c).Φ t.castSucc from rfl,
    show (dat1 m c).owesAt () t.succ = (dat1 m c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_fc c Set.univ (grid1.coords t) _ _ _ _ _ _ _ _ _ _ _ _ (blk1 m c 0) (blk1 m c 1) (blk1 m c 2) (blk1 m c 3) (blk1 m c 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- At its one grid point the second kernel's body leaves every input's staging buffer as fetched and the result's at
    the body's value of the five input blocks. -/
theorem body_obligation1 (c : Dev nD) : BodyObligation (dat1 m c) (defs₀ (F := F)) Variants.none () Set.univ := by
  intro t
  rw [bigSep_W1, bigSep_W1]
  exact sound_body1 m c t

end Cert.ReferenceIdeal.TwoStage

end
-- ==== Proof.RefRegions.lean ====
/-
  The two-stage program's run: its two kernel regions as segment records over the thread state "every unscoped buffer
  held at a valuation, and the core owing nothing", and the run with the result named.

  Stage one is entered with the buffers as the host reshape left them and leaves them with the pooled means in their
  array; stage two is entered from that and leaves the result in its array. At a region's entry its windows' arrays are
  split out of the unscoped buffers, the rest bypassing; at its exit they are put back at the valuation updated at the
  arrays the region may change. Stage one's invariant starts from the scoped buffers no window stages (its scratch among
  them, at anything) and ends giving them back with the scratch's contents forgotten; stage two's is those buffers
  throughout. Neither kernel has a semaphore of its own, and no core owes another anything.
-/
import proofs.«147069_g2000504122983038_pallasbulk_1167_2_alg».proof.Proof.RefRun
import proofs.«147069_g2000504122983038_pallasbulk_1167_2_alg».proof.Proof.PoolObligation
import proofs.«147069_g2000504122983038_pallasbulk_1167_2_alg».proof.Proof.FcBody
import Idealize.ShloMosaic.Lib.Pipeline.RegionsLoop

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof's resource algebra: one copy of the rounds library's. -/
abbrev EP : Emb (UR sig nD τ) (MT nD τ sig Unit (Elt F) ℕ (UR sig nD τ) ℕ) := emb₁

/-- No core owes another anything: no level is assigned. -/
abbrev L : GSem nD τ sig → Finset Unit := fun _ => ∅
abbrev lv : GSem nD τ sig → Unit → ℕ := fun _ _ => 0

/-- What rides beside the buffers between the items: the core owing nothing. -/
abbrev E (_ : Fin 3) (c : Dev nD) : sProp 𝕄 := iprop(∃ W, owes (c : Thread nD τ) (0 : CellTallies nD τ sig Unit) W)

/-- The regions leave the pooled means and the result where the conditional frame's valuations read them. -/
theorem outs_v1 (c : Dev nD) : outs m 2 main_v1 c = pooledOut m c := by
  unfold outs; rw [dif_pos rfl]
theorem outs_v2 (c : Dev nD) : outs m 3 main_v2 c = resultOut m c := by
  unfold outs; rw [dif_neg (by decide), dif_pos rfl]

/-- The valuation stage two is entered from is the conditional frame's after region 0. -/
theorem V2_eq (c : Dev nD) : V2 m (outs m) c = Vmid m c := by
  unfold V2 Vmid; rw [outs_v1]

set_option backward.isDefEq.respectTransparency.types false in
/-- STAGE ONE's record. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := body_obligation0 m c
  hwaits := Pipeline.hwaits_of_owed_zero _ _ _ _ L lv 0 fun _ _ => rfl
  pre c := iprop(StableHlo.held (c : Thread nD τ) (Pipeline.ucRefs τ sig) (V1 m c) ∗ E (F := F) 0 c)
  post c := iprop(StableHlo.held (c : Thread nD τ) (Pipeline.ucRefs τ sig) (V2 m (outs m) c) ∗ E (F := F) 1 c)
  X _ := BI.emp
  Y _ := BI.emp
  Z c := Pipeline.unscopedRest (Ix := Unit) (Name := ℕ) (U := UR sig nD τ) (Lvl := ℕ) spec0 c (fun b => V1 m c b)
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    have e := scopedRest0_eq (Ix := Unit) (Val := Elt F) (Name := ℕ) (U := UR sig nD τ) (Lvl := ℕ) c
    rw [show (pdats m 0 c).Φ 0 = PhiAcc m c 0 (Nat.zero_le _) from rfl, PhiAcc_zero m c 0 _ rfl]
    unfold otherScoped
    simp only [scM, owns_whole]
    refine BIBase.Entails.trans ?_ (Entails.of_eq e)
    iintro ⟨-, -, Hr⟩; iexact Hr
  hout c := by
    have e := scopedRest0_eq (Ix := Unit) (Val := Elt F) (Name := ℕ) (U := UR sig nD τ) (Lvl := ℕ) c
    have hN : cfg0.N ≠ 0 := by have := N_0; show grid0.N ≠ 0; omega
    rw [Pipeline.ownSems0_none, show (pdats m 0 c).Φ (Fin.last _) = PhiAcc m c cfg0.N (Nat.le_refl _) from rfl,
      PhiAcc_pos m c cfg0.N _ hN]
    refine BIBase.Entails.trans ?_ (sep_mono .rfl (sep_mono .rfl (Entails.of_eq e.symm)))
    unfold otherScoped
    simp only [scM, owns_whole]
    iintro ⟨Hs, Hr⟩
    isplitr; · iempintro
    isplitr; · iempintro
    isplitl [Hs]; · iexists _; iexact Hs
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c b) (fun b => V2 m (outs m) c b) ((pdats m 0 c).arrAt · cfg0.N)
      (fun w => by
        fin_cases w
        · exact ((pdats m 0 c).arrAt_in 0 rfl _).trans (V2_of m (outs m) c main_v0 (by decide)).symm
        · exact ((V2_eq m c ▸ rfl : V2 m (outs m) c main_v1 = Vmid m c main_v1).trans (by simp only [Vmid, Function.update_self]; rfl)).symm)
      (fun b hb => V2_of m (outs m) c b (by
        intro h; apply hb; rw [List.mem_singleton] at h; subst h
        exact Finset.mem_image.mpr ⟨1, Finset.mem_univ _, rfl⟩))
    rw [← Pipeline.unscopedBufs_held (Ix := Unit) (Name := ℕ) (U := UR sig nD τ) (Lvl := ℕ) c (V2 m (outs m) c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- STAGE TWO's record. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 m c).loose
  hwaits := Pipeline.hwaits_of_owed_zero _ _ _ _ L lv 1 fun _ _ => rfl
  pre c := iprop(StableHlo.held (c : Thread nD τ) (Pipeline.ucRefs τ sig) (V2 m (outs m) c) ∗ E (F := F) 1 c)
  post c := iprop(StableHlo.held (c : Thread nD τ) (Pipeline.ucRefs τ sig) (V3 m (outs m) c) ∗ E (F := F) 2 c)
  X _ := BI.emp
  Y _ := BI.emp
  Z c := Pipeline.unscopedRest (Ix := Unit) (Name := ℕ) (U := UR sig nD τ) (Lvl := ℕ) spec1 c (fun b => V2 m (outs m) c b)
  hentry c := by
    rw [Pipeline.ownSems0_none, ← Pipeline.unscopedBufs_held (Ix := Unit) (Name := ℕ) (U := UR sig nD τ) (Lvl := ℕ) c (V2 m (outs m) c)]
    have hsplit := Pipeline.arrays_of_unscopedBufs (p := 1) (pcfgs (F := F)) adm (pdats m) launch1.win launch1.arr_whole c
      ((pdats m 1 c).share_full fun _ => rfl) (fun b => V2 m (outs m) c b) (fun w => by rw [V2_eq]; rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V2 m (outs m) c b) (fun b => V3 m (outs m) c b) ((pdats m 1 c).arrAt · cfg1.N)
      (fun w => by
        fin_cases w
        · exact ((pdats m 1 c).arrAt_in 0 rfl _).trans ((show (pdats m 1 c).A 0 = V2 m (outs m) c main_v1 from by rw [V2_eq]; rfl).trans (V3_of m (outs m) c main_v1 (by decide)).symm)
        · exact ((pdats m 1 c).arrAt_in 1 rfl _).trans ((show (pdats m 1 c).A 1 = V2 m (outs m) c main_arg1 from by rw [V2_eq]; rfl).trans (V3_of m (outs m) c main_arg1 (by decide)).symm)
        · exact ((pdats m 1 c).arrAt_in 2 rfl _).trans ((show (pdats m 1 c).A 2 = V2 m (outs m) c main_arg2 from by rw [V2_eq]; rfl).trans (V3_of m (outs m) c main_arg2 (by decide)).symm)
        · exact ((pdats m 1 c).arrAt_in 3 rfl _).trans ((show (pdats m 1 c).A 3 = V2 m (outs m) c main_arg3 from by rw [V2_eq]; rfl).trans (V3_of m (outs m) c main_arg3 (by decide)).symm)
        · exact ((pdats m 1 c).arrAt_in 4 rfl _).trans ((show (pdats m 1 c).A 4 = V2 m (outs m) c main_arg4 from by rw [V2_eq]; rfl).trans (V3_of m (outs m) c main_arg4 (by decide)).symm)
        · exact ((V3_main_v2 m (outs m) c).trans (outs_v2 m c)).symm)
      (fun b hb => V3_of m (outs m) c b (by
        intro h; apply hb; rw [List.mem_singleton] at h; subst h
        exact Finset.mem_image.mpr ⟨5, Finset.mem_univ _, rfl⟩))
    rw [← Pipeline.unscopedBufs_held (Ix := Unit) (Name := ℕ) (U := UR sig nD τ) (Lvl := ℕ) c (V3 m (outs m) c)]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The rounds library's launch element: every staging cell's owner at round 0 and a duty token for every transfer the
    two pipelines issue. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of @main
    terminates, the result array ends at what stage two leaves in it and every argument as launched. -/
theorem run_result : θ_run defs (onTc (τ := τ) (main (F := F))) ⟨m, fun _ => 0, ρ⟩ (fun r => ∀ c : Dev nD,
      r.2.mem ((c.tc : Thread nD τ).loc main_v2) = resultOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := run_cond m (EP (F := F)) () Variants.none L lv (fun _ _ => rfl) ρ (outs m) (pdats m) (O₀ := 0) (G := fun _ => iprop(emp)) (u₀ := u₀)
    (hu₀ := by
      have h1 : (ownU u₀ : sProp 𝕄) ⊢ BI.own (EP (F := F) (initOf (Pipeline.cells cfgs cellOf_inj) (Pipeline.launchToks cfgs cellOf_inj))) :=
        BI.Entails.refl _
      iintro Hu
      ihave H := h1 $$ Hu
      imodintro
      isplitl [H]; · iexact H
      iapply (show (BI.emp : sProp 𝕄) ⊢ bigSep Finset.univ (fun _ : Dev nD => (BI.emp : sProp 𝕄)) from by rw [BI.bigSep_emp_const])
      iempintro)
    (E := E (F := F))
    (hE0 := by
      have hmono : (bigSep Finset.univ fun c : Dev nD => iprop(unscopedSems0 c ∗ owes (c : Thread nD τ) (0 : CellTallies nD τ sig Unit) ∅
            ∗ Pipeline.launchCred (0 : Dev nD → CellTallies nD τ sig Unit) c ∗ prngReg c (ρ c) ∗ iprop(emp)) : sProp 𝕄)
          ⊢ bigSep Finset.univ (E (F := F) 0) :=
        bigSep_mono fun c _ => show (iprop(unscopedSems0 c ∗ owes (c : Thread nD τ) (0 : CellTallies nD τ sig Unit) ∅
            ∗ Pipeline.launchCred (0 : Dev nD → CellTallies nD τ sig Unit) c ∗ prngReg c (ρ c) ∗ iprop(emp)) : sProp 𝕄) ⊢ E (F := F) 0 c from by
          iintro ⟨-, HO, -, -, -⟩; iexists ∅; iexact HO
      iintro ⟨H, -⟩
      ihave H' := hmono $$ H
      imodintro
      iexact H')
    (hE2 := fun c => .rfl)
    (R0 := reg0 m) (hpre0 := fun c => .rfl) (hpost0 := fun c => .rfl)
    (R1 := reg1 m) (hpre1 := fun c => .rfl) (hpost1 := fun c => .rfl)
  refine (θ_run defs _ _).mono (fun r hr c => ?_) h
  rw [← outs_v2 m c]
  exact hr c

end Cert.ReferenceIdeal.TwoStage

end
-- ==== Proof.ResultValue.lean ====
/-
  What stage two leaves in the result array, over the extended reals, from the array of pooled means it is handed.
  Stage two is one grid point whose every block is a whole array, so the result array is the body's value of the five
  arrays it reads. At entry (n, o) the two matrix products into zero accumulators are the inner products over the 256
  channels and over the 16 hidden units, the one-row biases are spread over the sixteen rows, and the rest is pointwise.
-/
import proofs.«147069_g2000504122983038_pallasbulk_1167_2_alg».proof.Proof.RefData
import proofs.«147069_g2000504122983038_pallasbulk_1167_2_alg».proof.Proof.Coeff
import Idealize.ShloMosaic.PureOps.Ideal.Laws
import Idealize.ShloMosaic.Lib.Pipeline.Value

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-! ## The two matrix products, read at an index -/

/-- First product: the left operand's index keeps the output's row. -/
private theorem lhsA_0 (i : S16x16.Idx) (q : dot_S16x256_S256x16_S16x16_1_0_0_1_n_n.contr.Idx) :
    (dot_S16x256_S256x16_S16x16_1_0_0_1_n_n.lhsIdx i q 0).val = (i 0).val := by
  unfold DotDims.lhsIdx
  rw [dif_neg (show ¬(0 : Fin S16x256.rank) ∈ dot_S16x256_S256x16_S16x16_1_0_0_1_n_n.lhsBatch from List.not_mem_nil),
    dif_pos (show (0 : Fin S16x256.rank) ∈ dot_S16x256_S256x16_S16x16_1_0_0_1_n_n.lhsNonContracting from List.mem_singleton.2 rfl)]
  rfl

private theorem lhsA_1 (i : S16x16.Idx) (q : dot_S16x256_S256x16_S16x16_1_0_0_1_n_n.contr.Idx) :
    (dot_S16x256_S256x16_S16x16_1_0_0_1_n_n.lhsIdx i q 1).val = (q ⟨0, Nat.one_pos⟩).val :=
  dot_S16x256_S256x16_S16x16_1_0_0_1_n_n.lhsIdx_val_of_single rfl i q

private theorem rhsA_0 (i : S16x16.Idx) (q : dot_S16x256_S256x16_S16x16_1_0_0_1_n_n.contr.Idx) :
    (dot_S16x256_S256x16_S16x16_1_0_0_1_n_n.rhsIdx i q 0).val = (q ⟨0, Nat.one_pos⟩).val :=
  dot_S16x256_S256x16_S16x16_1_0_0_1_n_n.rhsIdx_val_of_single rfl i q

private theorem rhsA_1 (i : S16x16.Idx) (q : dot_S16x256_S256x16_S16x16_1_0_0_1_n_n.contr.Idx) :
    (dot_S16x256_S256x16_S16x16_1_0_0_1_n_n.rhsIdx i q 1).val = (i 1).val := by
  unfold DotDims.rhsIdx
  rw [dif_neg (show ¬(1 : Fin S256x16.rank) ∈ dot_S16x256_S256x16_S16x16_1_0_0_1_n_n.rhsBatch from List.not_mem_nil),
    dif_pos (show (1 : Fin S256x16.rank) ∈ dot_S16x256_S256x16_S16x16_1_0_0_1_n_n.rhsNonContracting from List.mem_singleton.2 rfl)]
  rfl

/-- The 16 × 256 by 256 × 16 product into the zero accumulator, at (n, j): row n against column j. -/
private theorem matmulA_apply (l : FVec Ideal S16x256 .f32) (r : FVec Ideal S256x16 .f32) (n : Fin 16) (j : Fin 16) :
    matmul dot_S16x256_S256x16_S16x16_1_0_0_1_n_n none l r (constant S16x16 .f32 0x00000000#32) (ix2 n j)
      = ∑ k : Fin 256, l (ix2 n k) * r (ix2 k j) := by
  show FloatOps.matmul dot_S16x256_S256x16_S16x16_1_0_0_1_n_n none l r (constant S16x16 .f32 0x00000000#32) (ix2 n j) = _
  rw [Ideal.matmul_constant_zero_apply, ← Equiv.sum_comp (contrEquiv1 dot_S16x256_S256x16_S16x16_1_0_0_1_n_n 256 rfl rfl).symm]
  refine Finset.sum_congr rfl fun k _ => ?_
  have hk := contrEquiv1_symm_val dot_S16x256_S256x16_S16x16_1_0_0_1_n_n 256 rfl rfl k
  have el : dot_S16x256_S256x16_S16x16_1_0_0_1_n_n.lhsIdx (ix2 n j) ((contrEquiv1 dot_S16x256_S256x16_S16x16_1_0_0_1_n_n 256 rfl rfl).symm k) = ix2 n k :=
    funext fun a => Fin.ext (by
      match a with
      | ⟨0, _⟩ => exact lhsA_0 _ _
      | ⟨1, _⟩ => exact (lhsA_1 _ _).trans hk)
  have er : dot_S16x256_S256x16_S16x16_1_0_0_1_n_n.rhsIdx (ix2 n j) ((contrEquiv1 dot_S16x256_S256x16_S16x16_1_0_0_1_n_n 256 rfl rfl).symm k) = ix2 k j :=
    funext fun a => Fin.ext (by
      match a with
      | ⟨0, _⟩ => exact (rhsA_0 _ _).trans hk
      | ⟨1, _⟩ => exact rhsA_1 _ _)
  rw [el, er]

/-- Second product: the same four axis facts. -/
private theorem lhsB_0 (i : S16x8.Idx) (q : dot_S16x16_S16x8_S16x8_1_0_0_1_n_n.contr.Idx) :
    (dot_S16x16_S16x8_S16x8_1_0_0_1_n_n.lhsIdx i q 0).val = (i 0).val := by
  unfold DotDims.lhsIdx
  rw [dif_neg (show ¬(0 : Fin S16x16.rank) ∈ dot_S16x16_S16x8_S16x8_1_0_0_1_n_n.lhsBatch from List.not_mem_nil),
    dif_pos (show (0 : Fin S16x16.rank) ∈ dot_S16x16_S16x8_S16x8_1_0_0_1_n_n.lhsNonContracting from List.mem_singleton.2 rfl)]
  rfl

private theorem lhsB_1 (i : S16x8.Idx) (q : dot_S16x16_S16x8_S16x8_1_0_0_1_n_n.contr.Idx) :
    (dot_S16x16_S16x8_S16x8_1_0_0_1_n_n.lhsIdx i q 1).val = (q ⟨0, Nat.one_pos⟩).val :=
  dot_S16x16_S16x8_S16x8_1_0_0_1_n_n.lhsIdx_val_of_single rfl i q

private theorem rhsB_0 (i : S16x8.Idx) (q : dot_S16x16_S16x8_S16x8_1_0_0_1_n_n.contr.Idx) :
    (dot_S16x16_S16x8_S16x8_1_0_0_1_n_n.rhsIdx i q 0).val = (q ⟨0, Nat.one_pos⟩).val :=
  dot_S16x16_S16x8_S16x8_1_0_0_1_n_n.rhsIdx_val_of_single rfl i q

private theorem rhsB_1 (i : S16x8.Idx) (q : dot_S16x16_S16x8_S16x8_1_0_0_1_n_n.contr.Idx) :
    (dot_S16x16_S16x8_S16x8_1_0_0_1_n_n.rhsIdx i q 1).val = (i 1).val := by
  unfold DotDims.rhsIdx
  rw [dif_neg (show ¬(1 : Fin S16x8.rank) ∈ dot_S16x16_S16x8_S16x8_1_0_0_1_n_n.rhsBatch from List.not_mem_nil),
    dif_pos (show (1 : Fin S16x8.rank) ∈ dot_S16x16_S16x8_S16x8_1_0_0_1_n_n.rhsNonContracting from List.mem_singleton.2 rfl)]
  rfl

/-- The 16 × 16 by 16 × 8 product into the zero accumulator, at (n, o). -/
private theorem matmulB_apply (l : FVec Ideal S16x16 .f32) (r : FVec Ideal S16x8 .f32) (n : Fin 16) (o : Fin 8) :
    matmul dot_S16x16_S16x8_S16x8_1_0_0_1_n_n none l r (constant S16x8 .f32 0x00000000#32) (ix2 n o)
      = ∑ k : Fin 16, l (ix2 n k) * r (ix2 k o) := by
  show FloatOps.matmul dot_S16x16_S16x8_S16x8_1_0_0_1_n_n none l r (constant S16x8 .f32 0x00000000#32) (ix2 n o) = _
  rw [Ideal.matmul_constant_zero_apply, ← Equiv.sum_comp (contrEquiv1 dot_S16x16_S16x8_S16x8_1_0_0_1_n_n 16 rfl rfl).symm]
  refine Finset.sum_congr rfl fun k _ => ?_
  have hk := contrEquiv1_symm_val dot_S16x16_S16x8_S16x8_1_0_0_1_n_n 16 rfl rfl k
  have el : dot_S16x16_S16x8_S16x8_1_0_0_1_n_n.lhsIdx (ix2 n o) ((contrEquiv1 dot_S16x16_S16x8_S16x8_1_0_0_1_n_n 16 rfl rfl).symm k) = ix2 n k :=
    funext fun a => Fin.ext (by
      match a with
      | ⟨0, _⟩ => exact lhsB_0 _ _
      | ⟨1, _⟩ => exact (lhsB_1 _ _).trans hk)
  have er : dot_S16x16_S16x8_S16x8_1_0_0_1_n_n.rhsIdx (ix2 n o) ((contrEquiv1 dot_S16x16_S16x8_S16x8_1_0_0_1_n_n 16 rfl rfl).symm k) = ix2 k o :=
    funext fun a => Fin.ext (by
      match a with
      | ⟨0, _⟩ => exact (rhsB_0 _ _).trans hk
      | ⟨1, _⟩ => exact rhsB_1 _ _)
  rw [el, er]

/-! ## A one-row array spread over sixteen rows -/

private theorem bcast16_apply (v : S1x16.Idx → EReal) (n : Fin 16) (j : Fin 16) :
    broadcastTo S16x16 v broadcasts_S1x16_S16x16 (ix2 n j) = v (ix2 (0 : Fin 1) j) := by
  refine broadcastTo_apply v broadcasts_S1x16_S16x16 (ix2 n j) (ix2 (0 : Fin 1) j) fun ax => ?_
  match ax with
  | ⟨0, _⟩ => rfl
  | ⟨1, _⟩ => rfl

private theorem bcast8_apply (v : S1x8.Idx → EReal) (n : Fin 16) (o : Fin 8) :
    broadcastTo S16x8 v broadcasts_S1x8_S16x8 (ix2 n o) = v (ix2 (0 : Fin 1) o) := by
  refine broadcastTo_apply v broadcasts_S1x8_S16x8 (ix2 n o) (ix2 (0 : Fin 1) o) fun ax => ?_
  match ax with
  | ⟨0, _⟩ => rfl
  | ⟨1, _⟩ => rfl

/-! ## The body's value at an index -/

/-- Entry (n, o) of the body's value of five arrays: the first product plus its bias, rectified, through the second product
    plus its bias, through `2 σ(·) − 1`. -/
private theorem k1_pay1_apply (p : Vec Ideal S16x256 .f32) (w1 : Vec Ideal S256x16 .f32) (b1 : Vec Ideal S1x16 .f32)
    (w2 : Vec Ideal S16x8 .f32) (b2 : Vec Ideal S1x8 .f32) (n : Fin 16) (o : Fin 8) :
    k1_pay1 (F := Ideal) p w1 b1 w2 b2 (ix2 n o)
      = Cert.Coeff.coeff (Cert.Coeff.hiddenOf p w1 b1) w2 b2 n o := by
  unfold k1_pay1
  rw [subf_apply, mulf_apply, broadcast_apply, broadcast_apply]
  show _ * Ideal.logistic _ - _ = _
  rw [addf_apply, matmulB_apply, bcast8_apply]
  unfold Cert.Coeff.coeff Cert.Coeff.hiddenOf
  simp only [maximumf_apply, addf_apply, matmulA_apply, bcast16_apply, broadcast_apply, shapeCast_self]
  simp only [Ideal.ofBits_def, Ideal.ofBits_zero_f32]

/-! ## Stage two's blocks are its arrays -/

/-- Every window of stage two sits at block index zero on both axes. -/
private theorem idx1_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

private theorem emb0 (y : S16x256.Idx) : ((cfg1.win 0).blk t1_0).view.emb y = y := by
  obtain ⟨e0, e1, -⟩ := idx1_zero t1_0
  funext a; apply Fin.ext
  match a with
  | ⟨0, _⟩ => show win1_0.index t1_0 (0 : Fin 2) * 16 + 1 * (y 0).val = (y 0).val; omega
  | ⟨1, _⟩ => show win1_0.index t1_0 (1 : Fin 2) * 256 + 1 * (y 1).val = (y 1).val; omega

private theorem emb1 (y : S256x16.Idx) : ((cfg1.win 1).blk t1_0).view.emb y = y := by
  obtain ⟨-, -, e0, e1, -⟩ := idx1_zero t1_0
  funext a; apply Fin.ext
  match a with
  | ⟨0, _⟩ => show win1_1.index t1_0 (0 : Fin 2) * 256 + 1 * (y 0).val = (y 0).val; omega
  | ⟨1, _⟩ => show win1_1.index t1_0 (1 : Fin 2) * 16 + 1 * (y 1).val = (y 1).val; omega

private theorem emb2 (y : S1x16.Idx) : ((cfg1.win 2).blk t1_0).view.emb y = y := by
  obtain ⟨-, -, -, -, e0, e1, -⟩ := idx1_zero t1_0
  funext a; apply Fin.ext
  match a with
  | ⟨0, _⟩ => show win1_2.index t1_0 (0 : Fin 2) * 1 + 1 * (y 0).val = (y 0).val; omega
  | ⟨1, _⟩ => show win1_2.index t1_0 (1 : Fin 2) * 16 + 1 * (y 1).val = (y 1).val; omega

private theorem emb3 (y : S16x8.Idx) : ((cfg1.win 3).blk t1_0).view.emb y = y := by
  obtain ⟨-, -, -, -, -, -, e0, e1, -⟩ := idx1_zero t1_0
  funext a; apply Fin.ext
  match a with
  | ⟨0, _⟩ => show win1_3.index t1_0 (0 : Fin 2) * 16 + 1 * (y 0).val = (y 0).val; omega
  | ⟨1, _⟩ => show win1_3.index t1_0 (1 : Fin 2) * 8 + 1 * (y 1).val = (y 1).val; omega

private theorem emb4 (y : S1x8.Idx) : ((cfg1.win 4).blk t1_0).view.emb y = y := by
  obtain ⟨-, -, -, -, -, -, -, -, e0, e1, -⟩ := idx1_zero t1_0
  funext a; apply Fin.ext
  match a with
  | ⟨0, _⟩ => show win1_4.index t1_0 (0 : Fin 2) * 1 + 1 * (y 0).val = (y 0).val; omega
  | ⟨1, _⟩ => show win1_4.index t1_0 (1 : Fin 2) * 8 + 1 * (y 1).val = (y 1).val; omega

private theorem emb5 (y : S16x8.Idx) : ((cfg1.win 5).blk t1_0).view.emb y = y := by
  obtain ⟨-, -, -, -, -, -, -, -, -, -, e0, e1⟩ := idx1_zero t1_0
  funext a; apply Fin.ext
  match a with
  | ⟨0, _⟩ => show win1_5.index t1_0 (0 : Fin 2) * 16 + 1 * (y 0).val = (y 0).val; omega
  | ⟨1, _⟩ => show win1_5.index t1_0 (1 : Fin 2) * 8 + 1 * (y 1).val = (y 1).val; omega

/-- The first block is the array of pooled means. -/
private theorem blk1_0 (c : Dev nD) : blk1 m c 0 = pooledOut m c := by
  funext y
  show Function.update (V1 m c) main_v1 (pooledOut m c) main_v1 (((cfg1.win 0).blk t1_0).view.emb y) = _
  rw [Function.update_self, emb0]

/-- The other four are the launch contents of the four parameter arrays. -/
private theorem blk1_1 (c : Dev nD) : blk1 m c 1 = m ((c : Thread nD τ).loc main_arg1) := by
  funext y
  show Function.update (V1 m c) main_v1 (pooledOut m c) main_arg1 (((cfg1.win 1).blk t1_0).view.emb y) = _
  rw [Function.update_of_ne (by decide), emb1, V1_of m c main_arg1 (by decide)]

private theorem blk1_2 (c : Dev nD) : blk1 m c 2 = m ((c : Thread nD τ).loc main_arg2) := by
  funext y
  show Function.update (V1 m c) main_v1 (pooledOut m c) main_arg2 (((cfg1.win 2).blk t1_0).view.emb y) = _
  rw [Function.update_of_ne (by decide), emb2, V1_of m c main_arg2 (by decide)]

private theorem blk1_3 (c : Dev nD) : blk1 m c 3 = m ((c : Thread nD τ).loc main_arg3) := by
  funext y
  show Function.update (V1 m c) main_v1 (pooledOut m c) main_arg3 (((cfg1.win 3).blk t1_0).view.emb y) = _
  rw [Function.update_of_ne (by decide), emb3, V1_of m c main_arg3 (by decide)]

private theorem blk1_4 (c : Dev nD) : blk1 m c 4 = m ((c : Thread nD τ).loc main_arg4) := by
  funext y
  show Function.update (V1 m c) main_v1 (pooledOut m c) main_arg4 (((cfg1.win 4).blk t1_0).view.emb y) = _
  rw [Function.update_of_ne (by decide), emb4, V1_of m c main_arg4 (by decide)]

/-! ## The result array -/

/-- Entry (n, o) of the result: the pooled means of row `n` contracted with the first layer's weights over the 256
    channels, plus its bias; rectified; contracted with the second layer's weights, plus its bias; through `2 σ(·) − 1`. -/
theorem resultOut_eq (c : Dev nD) :
    resultOut m c = fun i => Cert.Coeff.coeff
      (Cert.Coeff.hiddenOf (pooledOut m c) (m ((c : Thread nD τ).loc main_arg1)) (m ((c : Thread nD τ).loc main_arg2)))
      (m ((c : Thread nD τ).loc main_arg3)) (m ((c : Thread nD τ).loc main_arg4)) (i 0) (i 1) := by
  unfold resultOut
  refine (dat1 m c).arrAt_eq_of_cover 5 _ (fun t _ => ?_) (fun i => ⟨t1_0, flush1_5 t1_0, ?_⟩)
  · -- what the one point writes back is the body's value of the five arrays, index by index
    obtain rfl := fin_N1 t
    funext y
    show k1_pay1 (blk1 m c 0) (blk1 m c 1) (blk1 m c 2) (blk1 m c 3) (blk1 m c 4) y
      = (fun i : S16x8.Idx => Cert.Coeff.coeff
          (Cert.Coeff.hiddenOf (pooledOut m c) (m ((c : Thread nD τ).loc main_arg1)) (m ((c : Thread nD τ).loc main_arg2)))
          (m ((c : Thread nD τ).loc main_arg3)) (m ((c : Thread nD τ).loc main_arg4)) (i 0) (i 1)) (((cfg1.win 5).blk t1_0).view.emb y)
    rw [emb5, blk1_0, blk1_1, blk1_2, blk1_3, blk1_4]
    obtain ⟨n, o, rfl⟩ : ∃ (n : Fin 16) (o : Fin 8), y = ix2 n o := ⟨y 0, y 1, eq_ix2 y⟩
    exact k1_pay1_apply _ _ _ _ _ n o
  · -- the one block is the whole array
    show i ∈ ((View.whole main_v2).slice (win1_5.rect t1_0)).set
    rw [View.set_slice_whole, Rect.mem_set_unit]
    obtain ⟨-, -, -, -, -, -, -, -, -, -, e0, e1⟩ := idx1_zero t1_0
    intro a
    match a with
    | ⟨0, _⟩ => show win1_5.index t1_0 (0 : Fin 2) * 16 ≤ (i 0).val ∧ (i 0).val < win1_5.index t1_0 (0 : Fin 2) * 16 + 16; have h0 : (i 0).val < 16 := (i 0).isLt; omega
    | ⟨1, _⟩ => show win1_5.index t1_0 (1 : Fin 2) * 8 ≤ (i 1).val ∧ (i 1).val < win1_5.index t1_0 (1 : Fin 2) * 8 + 8; have h1 : (i 1).val < 8 := (i 1).isLt; omega

end Cert.ReferenceIdeal.TwoStage

end
-- ==== Proof.AccSum.lean ====
/-
  The pooling accumulator at the last spatial tile of a (batch tile, channel tile) pair, over the extended reals: entry
  (r, ch, lane) is the sum, over the 98 = 3 · 32 + 2 lane-chunks the accumulator took in, of the activation at batch row
  `8 · (batch tile) + r`, channel `128 · (channel tile) + ch`, spatial position `128 · q + lane`.
  Each of the four steps adds its tile's lane-chunks entrywise onto a running value that starts at zero, and a staged
  tile's entry inside the array is the activation's at (tile index × tile size + the coordinate inside the tile) on
  every axis. Chunk `j` of spatial tile `k` is chunk `32 · k + j` of the row, so by associativity and commutativity of
  addition the 32 + 32 + 32 + 2 terms are the one sum over the 98 chunks.
-/
import proofs.«147069_g2000504122983038_pallasbulk_1167_2_alg».proof.Proof.RefData
import Idealize.ShloMosaic.PureOps.Ideal.Laws
import Idealize.ShloMosaic.Lib.Pipeline.Value

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-- The batch row and the channel an accumulator entry at point `t` belongs to. -/
def rowAt (t : Fin cfg0.N) (y0 : Fin 8) : Fin 16 :=
  ⟨8 * (grid0.coords t 0).val + y0.val, by have h : (grid0.coords t 0).val < 2 := (grid0.coords t 0).isLt; have := y0.isLt; omega⟩
def chanAt (t : Fin cfg0.N) (y1 : Fin 128) : Fin 256 :=
  ⟨128 * (grid0.coords t 1).val + y1.val, by have h : (grid0.coords t 1).val < 2 := (grid0.coords t 1).isLt; have := y1.isLt; omega⟩

/-- The flattened activation, at its literal type. -/
abbrev xarr (c : Dev nD) : Vec Ideal S16x256x12544 .f32 := xflat m c

/-! ## One step of the accumulator, entrywise -/

/-- The 32 chunk numbers in order. -/
private theorem finRange32 : List.finRange 32 = [0, 1, 2, 3, 4, 5, 6, 7, 8, 9, 10, 11, 12, 13, 14, 15, 16, 17, 18, 19, 20,
    21, 22, 23, 24, 25, 26, 27, 28, 29, 30, 31] := by
  decide

/-- The reset value is zero at every entry. -/
private theorem pay1_ix (y0 : Fin 8) (y1 : Fin 128) (y2 : Fin 128) : (k0_pay1 (F := Ideal)) (ix3 y0 y1 y2) = 0 := by
  unfold k0_pay1
  rw [shapeCast_self]
  exact Ideal.ofBits_zero_f32

/-- A full step adds the tile's 32 lane-chunks onto the entry: the pairwise order of the additions is a reassociation. -/
private theorem accFull_ix (a : Vec Ideal S8x128x128 .f32) (x0 : Vec Ideal S8x128x4096 .f32) (y0 : Fin 8) (y1 : Fin 128)
    (y2 : Fin 128) :
    accFull a x0 (ix3 y0 y1 y2) = a (ix3 y0 y1 y2) + ∑ j : Fin 32, chunk x0 j (ix3 y0 y1 y2) := by
  unfold accFull k0_pay2 k0_pay9 k0_pay7 k0_pay5 k0_pay6 k0_pay8 k0_pay10
  simp only [shapeCast_self, addf_apply]
  rw [Fin.sum_univ_def, finRange32]
  simp only [List.map_cons, List.map_nil, List.sum_cons, List.sum_nil, add_zero]
  ac_rfl

/-- The cut step adds the tile's first two lane-chunks onto the entry. -/
private theorem accTail_ix (a : Vec Ideal S8x128x128 .f32) (x0 : Vec Ideal S8x128x4096 .f32) (y0 : Fin 8) (y1 : Fin 128)
    (y2 : Fin 128) :
    accTail a x0 (ix3 y0 y1 y2) = a (ix3 y0 y1 y2) + (chunk x0 0 (ix3 y0 y1 y2) + chunk x0 1 (ix3 y0 y1 y2)) := by
  unfold accTail k0_pay3
  simp only [shapeCast_self]
  rfl

/-- The accumulator three steps on from a reset point: the reset and two further full steps, then the cut step. -/
private theorem accAt_four (c : Dev nD) (k : ℕ) (hk : k + 1 + 1 + 1 < cfg0.N) (h0 : k % 4 = 0) :
    accAt m c (k + 1 + 1 + 1) hk
      = accTail (accFull (accFull (accFull k0_pay1 (stg m c ⟨k, by omega⟩)) (stg m c ⟨k + 1, by omega⟩))
          (stg m c ⟨k + 1 + 1, by omega⟩)) (stg m c ⟨k + 1 + 1 + 1, hk⟩) := by
  have e3 : accAt m c (k + 1 + 1 + 1) hk
      = accTail (accAt m c (k + 1 + 1) (by omega)) (stg m c ⟨k + 1 + 1 + 1, hk⟩) :=
    (if_neg (by omega)).trans (if_pos (by omega))
  have e2 : accAt m c (k + 1 + 1) (by omega)
      = accFull (accAt m c (k + 1) (by omega)) (stg m c ⟨k + 1 + 1, by omega⟩) :=
    (if_neg (by omega)).trans (if_neg (by omega))
  have e1 : accAt m c (k + 1) (by omega) = accFull (accAt m c k (by omega)) (stg m c ⟨k + 1, by omega⟩) :=
    (if_neg (by omega)).trans (if_neg (by omega))
  have e0 : accAt m c k (by omega) = accFull k0_pay1 (stg m c ⟨k, by omega⟩) :=
    accAt_reset m c ⟨k, by omega⟩ h0
  rw [e3, e2, e1, e0]

/-! ## A staged tile's entry is the activation's -/

/-- The grid's point `t` is spatial tile `t mod 4` of channel tile `(t / 4) mod 2` of batch tile `t / 8`. -/
private theorem coords_facts : ∀ t : Fin grid0.N,
    (grid0.coords t 0).val = t.val / 8 ∧ (grid0.coords t 1).val = t.val / 4 % 2 ∧ (grid0.coords t 2).val = t.val % 4 := by
  decide +kernel

/-- The tile window's block index at a point is the point's coordinates; only the fourth spatial tile is cut, to 256. -/
private theorem win_facts : ∀ t : Fin grid0.N,
    win0_0.index t 0 = (grid0.coords t 0).val ∧ win0_0.index t 1 = (grid0.coords t 1).val
    ∧ win0_0.index t 2 = (grid0.coords t 2).val
    ∧ win0_0.xsize (grid0.coords t) 0 = 8 ∧ win0_0.xsize (grid0.coords t) 1 = 128
    ∧ win0_0.xsize (grid0.coords t) 2 = if (grid0.coords t 2).val = 3 then 256 else 4096 := by
  decide +kernel

/-- Inside the array, the staged tile's entry at lane `l` is the activation's at spatial position
    `4096 · (spatial tile) + l`, batch row and channel the point's: on each axis, block index × block size + the
    coordinate inside the block. -/
private theorem stg_ix (c : Dev nD) (t : Fin cfg0.N) (y0 : Fin 8) (y1 : Fin 128) (l : Fin 4096)
    (hl : 4096 * (grid0.coords t 2).val + l.val < 12544) :
    stg m c t (ix3 y0 y1 l)
      = xarr m c (ix3 (rowAt t y0) (chanAt t y1) ⟨4096 * (grid0.coords t 2).val + l.val, hl⟩) := by
  obtain ⟨hi0, hi1, hi2, hx0, hx1, hx2⟩ := win_facts t
  have hk : (grid0.coords t 2).val < 4 := (grid0.coords t 2).isLt
  have hmv : win0_0.moved (grid0.coords t) (ix3 y0 y1 l) = true := by
    rw [Window.moved_iff]
    intro a
    match a with
    | ⟨0, _⟩ => show y0.val < win0_0.xsize (grid0.coords t) 0; rw [hx0]; exact y0.isLt
    | ⟨1, _⟩ => show y1.val < win0_0.xsize (grid0.coords t) 1; rw [hx1]; exact y1.isLt
    | ⟨2, _⟩ =>
      show l.val < win0_0.xsize (grid0.coords t) 2
      rw [hx2]; have := l.isLt
      split <;> omega
  unfold stg Window.fill
  rw [dif_pos hmv]
  unfold tileIn
  rw [View.read_apply]
  show xflat m c _ = xflat m c _
  congr 1
  funext a
  apply Fin.ext
  match a with
  | ⟨0, _⟩ =>
    show win0_0.index t 0 * 8 + 1 * y0.val = 8 * (grid0.coords t 0).val + y0.val
    rw [hi0]; omega
  | ⟨1, _⟩ =>
    show win0_0.index t 1 * 128 + 1 * y1.val = 128 * (grid0.coords t 1).val + y1.val
    rw [hi1]; omega
  | ⟨2, _⟩ =>
    show win0_0.index t 2 * 4096 + 1 * l.val = 4096 * (grid0.coords t 2).val + l.val
    rw [hi2]; omega

/-! ## The 98 chunks of a row -/

/-- Lane-chunk `n` of the row and channel of point `t`'s entry (y0, y1), at lane `y2`; zero past the array's end. -/
private def laneAt (c : Dev nD) (t : Fin cfg0.N) (y0 : Fin 8) (y1 : Fin 128) (y2 : Fin 128) (n : ℕ) : Elt Ideal .f32 :=
  if h : 128 * n + y2.val < 12544 then xarr m c (ix3 (rowAt t y0) (chanAt t y1) ⟨128 * n + y2.val, h⟩) else 0

private theorem laneAt_eq (c : Dev nD) (t : Fin cfg0.N) (y0 : Fin 8) (y1 : Fin 128) (y2 : Fin 128) (n : ℕ)
    (h : 128 * n + y2.val < 12544) :
    laneAt m c t y0 y1 y2 n = xarr m c (ix3 (rowAt t y0) (chanAt t y1) ⟨128 * n + y2.val, h⟩) := dif_pos h

/-- Chunk `j` of the staged tile at a point `t'` of `t`'s pair, spatial tile `k`, is chunk `32 · k + j` of the row. -/
private theorem chunk_stg (c : Dev nD) (t t' : Fin cfg0.N) (k : ℕ) (hk : (grid0.coords t' 2).val = k)
    (h0 : (grid0.coords t' 0).val = (grid0.coords t 0).val) (h1 : (grid0.coords t' 1).val = (grid0.coords t 1).val)
    (j : Fin 32) (hin : 32 * k + j.val < 98) (y0 : Fin 8) (y1 : Fin 128) (y2 : Fin 128) :
    chunk (stg m c t') j (ix3 y0 y1 y2) = laneAt m c t y0 y1 y2 (32 * k + j.val) := by
  have hy := y2.isLt
  have hl : 4096 * (grid0.coords t' 2).val + (128 * j.val + y2.val) < 12544 := by rw [hk]; omega
  have e := stg_ix m c t' y0 y1 ⟨128 * j.val + y2.val, by have := j.isLt; omega⟩ hl
  have hr : rowAt t' y0 = rowAt t y0 :=
    Fin.ext (by show 8 * (grid0.coords t' 0).val + y0.val = 8 * (grid0.coords t 0).val + y0.val; rw [h0])
  have hc : chanAt t' y1 = chanAt t y1 :=
    Fin.ext (by show 128 * (grid0.coords t' 1).val + y1.val = 128 * (grid0.coords t 1).val + y1.val; rw [h1])
  rw [laneAt_eq m c t y0 y1 y2 _ (by omega)]
  refine e.trans ?_
  rw [hr, hc]
  congr 2
  apply Fin.ext
  show 4096 * (grid0.coords t' 2).val + (128 * j.val + y2.val) = 128 * (32 * k + j.val) + y2.val
  rw [hk]; omega

/-- So a full step at spatial tile `k ≤ 2` adds chunks `32 · k, …, 32 · k + 31` of the row. -/
private theorem tile_sum (c : Dev nD) (t t' : Fin cfg0.N) (k : ℕ) (hk : (grid0.coords t' 2).val = k) (hk2 : k ≤ 2)
    (h0 : (grid0.coords t' 0).val = (grid0.coords t 0).val) (h1 : (grid0.coords t' 1).val = (grid0.coords t 1).val)
    (y0 : Fin 8) (y1 : Fin 128) (y2 : Fin 128) :
    ∑ j : Fin 32, chunk (stg m c t') j (ix3 y0 y1 y2)
      = ∑ n ∈ Finset.range 32, laneAt m c t y0 y1 y2 (32 * k + n) := by
  rw [← Fin.sum_univ_eq_sum_range (fun n => laneAt m c t y0 y1 y2 (32 * k + n)) 32]
  refine Finset.sum_congr rfl fun j _ => ?_
  exact chunk_stg m c t t' k hk h0 h1 j (by have := j.isLt; omega) y0 y1 y2

/-- At the last spatial tile of a pair, each accumulator entry is the sum over the 98 lane-chunks of its row and channel. -/
theorem accAt_sum (c : Dev nD) (t : Fin cfg0.N) (h3 : t.val % 4 = 3) (y0 : Fin 8) (y1 : Fin 128) (y2 : Fin 128) :
    accAt m c t.val t.isLt (ix3 y0 y1 y2)
      = ∑ q : Fin 98, xarr m c (ix3 (rowAt t y0) (chanAt t y1)
          ⟨128 * q.val + y2.val, by have := q.isLt; have := y2.isLt; omega⟩) := by
  have hN : cfg0.N = 16 := N_0
  have hG : grid0.N = 16 := N_0
  have hy := y2.isLt
  obtain ⟨n, hn⟩ := t
  obtain ⟨k, rfl⟩ : ∃ k, n = k + 1 + 1 + 1 := ⟨n - 3, by have : n % 4 = 3 := h3; omega⟩
  have hk0 : k % 4 = 0 := by have : (k + 1 + 1 + 1) % 4 = 3 := h3; omega
  have hk : k + 1 + 1 + 1 < 16 := hN ▸ hn
  -- the four points of the pair and where the grid puts them
  have f0 := coords_facts ⟨k, by omega⟩
  have f1 := coords_facts ⟨k + 1, by omega⟩
  have f2 := coords_facts ⟨k + 1 + 1, by omega⟩
  have f3 := coords_facts ⟨k + 1 + 1 + 1, hn⟩
  dsimp only at f0 f1 f2 f3
  -- the right side as the sum of the row's chunks 0 … 97
  have hR : (∑ q : Fin 98, xarr m c (ix3 (rowAt ⟨k + 1 + 1 + 1, hn⟩ y0) (chanAt ⟨k + 1 + 1 + 1, hn⟩ y1)
        ⟨128 * q.val + y2.val, by have := q.isLt; omega⟩))
      = ∑ i ∈ Finset.range 98, laneAt m c ⟨k + 1 + 1 + 1, hn⟩ y0 y1 y2 i := by
    rw [← Fin.sum_univ_eq_sum_range (fun i => laneAt m c ⟨k + 1 + 1 + 1, hn⟩ y0 y1 y2 i) 98]
    exact Finset.sum_congr rfl fun q _ => (laneAt_eq m c _ y0 y1 y2 q.val (by have := q.isLt; omega)).symm
  -- the three full tiles' chunks and the cut tile's two
  have s0 := tile_sum m c ⟨k + 1 + 1 + 1, hn⟩ ⟨k, by omega⟩ 0 (by omega) (by omega) (by omega) (by omega) y0 y1 y2
  have s1 := tile_sum m c ⟨k + 1 + 1 + 1, hn⟩ ⟨k + 1, by omega⟩ 1 (by omega) (by omega) (by omega) (by omega) y0 y1 y2
  have s2 := tile_sum m c ⟨k + 1 + 1 + 1, hn⟩ ⟨k + 1 + 1, by omega⟩ 2 (by omega) (by omega) (by omega) (by omega) y0 y1 y2
  have c0 : chunk (stg m c ⟨k + 1 + 1 + 1, hn⟩) 0 (ix3 y0 y1 y2) = laneAt m c ⟨k + 1 + 1 + 1, hn⟩ y0 y1 y2 96 :=
    chunk_stg m c ⟨k + 1 + 1 + 1, hn⟩ ⟨k + 1 + 1 + 1, hn⟩ 3 (by omega) rfl rfl 0 (by decide) y0 y1 y2
  have c1 : chunk (stg m c ⟨k + 1 + 1 + 1, hn⟩) 1 (ix3 y0 y1 y2) = laneAt m c ⟨k + 1 + 1 + 1, hn⟩ y0 y1 y2 97 :=
    chunk_stg m c ⟨k + 1 + 1 + 1, hn⟩ ⟨k + 1 + 1 + 1, hn⟩ 3 (by omega) rfl rfl 1 (by decide) y0 y1 y2
  have h2 : ∀ f : ℕ → Elt Ideal .f32, ∑ x ∈ Finset.range 2, f x = f 0 + f 1 := fun f => by
    rw [Finset.sum_range_succ, Finset.sum_range_one]
  show accAt m c (k + 1 + 1 + 1) hn (ix3 y0 y1 y2) = _
  rw [hR, accAt_four m c k hn hk0, accTail_ix, accFull_ix, accFull_ix, accFull_ix, pay1_ix, s0, s1, s2, c0, c1,
    show (98 : ℕ) = 32 + (32 + (32 + 2)) from rfl, Finset.sum_range_add, Finset.sum_range_add, Finset.sum_range_add, h2]
  simp only [Nat.mul_zero, Nat.zero_add, Nat.mul_one, Nat.reduceMul, ← Nat.add_assoc, Nat.reduceAdd]
  simp only [zero_add, add_assoc]

end Cert.ReferenceIdeal.TwoStage

end
-- ==== Proof.PooledValue.lean ====
/-
  What stage one leaves in the array of pooled means, over the extended reals: entry (n, ch) is the spatial sum of
  channel `ch` of batch row `n` times the mean's factor.
  The last point of a (batch tile, channel tile) pair stores the lane sum of the accumulator times the factor; the
  accumulator's entry (r, ch, lane) is the sum over the 98 lane-chunks q of the activation at position 128 q + lane, and
  (q, lane) ↦ 128 q + lane is a bijection onto the 12544 = 98 · 128 positions, so the double sum is the spatial sum. The
  four blocks written back, one per pair, tile the 16 × 256 array.
-/
import proofs.«147069_g2000504122983038_pallasbulk_1167_2_alg».proof.Proof.AccSum
import proofs.«147069_g2000504122983038_pallasbulk_1167_2_alg».proof.Proof.Coeff
import Idealize.ShloMosaic.PureOps.Ideal.Laws
import Idealize.ShloMosaic.Lib.Pipeline.Value
import Idealize.ShloMosaic.Lib.StableHlo.Run

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

/-- The flattened activation stage one reads is the host reshape of the first argument: the same entries in row-major order. -/
theorem xflat_eq (c : Dev nD) : xflat m c = Cert.Coeff.flat (m ((c : Thread nD τ).loc main_arg0)) := by
  show StableHlo.after hostOps0 _ (Proc.devRef .tc main_v0) = _
  after_results
  rfl

/-- What the last point of a pair stores: at (r, k) the sum over the 128 lanes of the accumulator's row (r, k), times the factor. -/
private theorem pay4_apply (v : Vec Ideal S8x128x128 .f32) (r : Fin 8) (k : Fin 128) :
    (k0_pay4 (F := Ideal) v : S8x128.Idx → EReal) (ix2 r k)
      = (∑ l : Fin 128, (v : S8x128x128.Idx → EReal) (ix3 r k l)) * Cert.Coeff.scale := by
  unfold k0_pay4
  dsimp only
  refine congrArg₂ (· * ·) ?_ ?_
  · refine (Ideal.multiReduction_add_single (v : FVec Ideal S8x128x128 .f32) 0x00000000#32 reduces_S8x128x128_S8x128 (.inl rfl) rfl (ix2 r k)).trans ?_
    refine Finset.sum_congr rfl fun l _ => ?_
    congr 1
    funext a
    apply Fin.ext
    match a with
    | ⟨0, _⟩ => rfl
    | ⟨1, _⟩ => rfl
    | ⟨2, _⟩ => rfl
  · rfl

/-- Lane by lane and chunk by chunk is position by position: (q, l) ↦ 128 q + l is a bijection of 98 × 128 pairs
    onto the 12544 = 98 · 128 positions, and a finite sum in a commutative monoid may be taken in any order. -/
private theorem sum_chunks {M : Type} [AddCommMonoid M] (f : Fin 12544 → M) :
    ∑ l : Fin 128, ∑ q : Fin 98, f ⟨128 * q.val + l.val, by have := q.isLt; have := l.isLt; omega⟩ = ∑ p : Fin 12544, f p := by
  rw [Finset.sum_comm]
  rw [← Fintype.sum_prod_type (f := fun x : Fin 98 × Fin 128 => f ⟨128 * x.1.val + x.2.val, by have := x.1.isLt; have := x.2.isLt; omega⟩)]
  refine Fintype.sum_equiv (finProdFinEquiv (m := 98) (n := 128)) _ _ fun x => congrArg f (Fin.ext ?_)
  show 128 * x.1.val + x.2.val = x.2.val + 128 * x.1.val
  omega

/-- The pooled block's index map is the first two grid coordinates: (batch tile, channel tile). -/
private theorem idx_pool : ∀ t : Fin cfg0.N, win0_1.index t (0 : Fin 2) = (grid0.coords t 0).val
    ∧ win0_1.index t (1 : Fin 2) = (grid0.coords t 1).val :=
  (by decide +kernel : ∀ t : Fin grid0.N, _)

/-- Every (batch tile, channel tile) pair has its last spatial tile among the points. -/
private theorem idx_pool_onto : ∀ (q0 : Fin 2) (q1 : Fin 2), ∃ t : Fin cfg0.N, t.val % 4 = 3
    ∧ win0_1.index t (0 : Fin 2) = q0.val ∧ win0_1.index t (1 : Fin 2) = q1.val :=
  (by decide +kernel : ∀ (q0 : Fin 2) (q1 : Fin 2), ∃ t : Fin grid0.N, _)

/-- The array of pooled means: entry (n, ch) is the spatial sum of channel ch of batch row n, times the factor. -/
private abbrev pooledG (c : Dev nD) : S16x256.Idx → EReal :=
  fun i => Cert.Coeff.pooled (xflat m c) (i 0) (i 1) * Cert.Coeff.scale

/-- One entry of what a pair's last point stores: the pooled mean of its row and channel. -/
private theorem pay4_acc (c : Dev nD) (t : Fin cfg0.N) (h3 : t.val % 4 = 3) (r : Fin 8) (k : Fin 128) :
    (k0_pay4 (F := Ideal) (accAt m c t.val t.isLt) : S8x128.Idx → EReal) (ix2 r k)
      = Cert.Coeff.pooled (xflat m c) (rowAt t r) (chanAt t k) * Cert.Coeff.scale := by
  refine (pay4_apply (accAt m c t.val t.isLt) r k).trans (congrArg (· * Cert.Coeff.scale) ?_)
  refine (Finset.sum_congr rfl fun l _ => accAt_sum m c t h3 r k l).trans ?_
  exact sum_chunks (fun p : Fin 12544 => (xarr m c : S16x256x12544.Idx → EReal) (ix3 (rowAt t r) (chanAt t k) p))

/-- What a pair's last point writes back is its 8 × 128 block of the array of pooled means. -/
private theorem flushed_pool (c : Dev nD) (t : Fin cfg0.N) (h3 : t.val % 4 = 3) :
    (dat0 m c).flushed 1 t = ((cfg0.win 1).blk t).view.read (Elt Ideal) (pooledG m c) := by
  show (cfg0.win 1).cut (grid0.coords t) ((dat0 m c).after 1 t) = _
  rw [dat0_after1]
  obtain ⟨e0, e1⟩ := idx_pool t
  funext j
  show (k0_pay4 (F := Ideal) (accAt m c t.val t.isLt) : S8x128.Idx → EReal) j = pooledG m c (((cfg0.win 1).blk t).view.emb j)
  obtain ⟨r, k, rfl⟩ : ∃ (r : Fin 8) (k : Fin 128), j = ix2 r k := ⟨j 0, j 1, eq_ix2 j⟩
  rw [pay4_acc m c t h3 r k]
  have h0 : rowAt t r = (((cfg0.win 1).blk t).view.emb (ix2 r k)) 0 := Fin.ext (by
    show 8 * (grid0.coords t 0).val + r.val = win0_1.index t (0 : Fin 2) * 8 + 1 * r.val
    omega)
  have h1 : chanAt t k = (((cfg0.win 1).blk t).view.emb (ix2 r k)) 1 := Fin.ext (by
    show 128 * (grid0.coords t 1).val + k.val = win0_1.index t (1 : Fin 2) * 128 + 1 * k.val
    omega)
  exact congrArg₂ (fun a b => Cert.Coeff.pooled (xflat m c) a b * Cert.Coeff.scale) h0 h1

/-- An entry of the array is in point t's block iff each coordinate is in the block's range on its axis. -/
private theorem mem_blk_pool (t : Fin cfg0.N) (i : S16x256.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v1).slice (win0_1.rect t)).set ↔ _
  rw [View.set_slice_whole, Rect.mem_set_unit]
  exact Iff.rfl

/-- The four write-backs tile the array: entry (n, ch) lies in the block of the pair (n / 8, ch / 128). -/
private theorem cover_pool (i : S16x256.Idx) :
    ∃ t : Fin cfg0.N, (cfg0.win 1).flush t = true ∧ i ∈ ((cfg0.win 1).blk t).view.set := by
  have hi0 : (i 0).val < 16 := (i 0).isLt
  have hi1 : (i 1).val < 256 := (i 1).isLt
  obtain ⟨t, h3, q0, q1⟩ := idx_pool_onto ⟨(i 0).val / 8, by omega⟩ ⟨(i 1).val / 128, by omega⟩
  have q0' : win0_1.index t (0 : Fin 2) = (i 0).val / 8 := q0
  have q1' : win0_1.index t (1 : Fin 2) = (i 1).val / 128 := q1
  refine ⟨t, (flush0_1 t).mpr h3, ?_⟩
  rw [mem_blk_pool]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- Entry (n, ch) of the pooled means: the 3 · 32 + 2 lane-chunks the accumulator took in, summed over the 128 lanes,
    are the 12544 spatial positions of the channel, each once; times the factor. -/
theorem pooledOut_eq (c : Dev nD) :
    pooledOut m c = fun i => Cert.Coeff.pooled (xflat m c) (i 0) (i 1) * Cert.Coeff.scale :=
  (dat0 m c).arrAt_eq_of_cover 1 (pooledG m c) (fun t hf => flushed_pool m c t ((flush0_1 t).mp hf)) cover_pool

end Cert.ReferenceIdeal.TwoStage

end
-- ==== Proof.RefValue.lean ====
/-
  The two-stage program's result is the coefficient array with the mean's factor applied early: stage two's value of
  the pooled means (`resultOut_eq`), the pooled means as scaled spatial sums (`pooledOut_eq`), and the flattened
  activation as the host reshape of the first argument (`xflat_eq`), put together.
-/
import proofs.«147069_g2000504122983038_pallasbulk_1167_2_alg».proof.Proof.ResultValue
import proofs.«147069_g2000504122983038_pallasbulk_1167_2_alg».proof.Proof.PooledValue

noncomputable section

namespace Cert.ReferenceIdeal.TwoStage

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ)

theorem resultOut_spec (c : Dev nD) :
    resultOut m c = Cert.Coeff.outEarly (Cert.Coeff.flat (m ((c : Thread nD τ).loc main_arg0))) (m ((c : Thread nD τ).loc main_arg1))
      (m ((c : Thread nD τ).loc main_arg2)) (m ((c : Thread nD τ).loc main_arg3)) (m ((c : Thread nD τ).loc main_arg4)) := by
  rw [resultOut_eq, pooledOut_eq, xflat_eq]
  unfold Cert.Coeff.outEarly
  rw [Cert.Coeff.hiddenEarly_eq]
  rfl

end Cert.ReferenceIdeal.TwoStage

end
-- ==== Proof.Reals.lean ====
/-
  From the precondition (every float input compares below +infinity in absolute value) to "every entry is a real number".
  The predicate is a conjunction, over all entries of each input, of the test max(v, -v) < +infinity. A conjunction that
  holds, holds at every entry; and at either infinity max(v, -v) is +infinity itself, so an entry passing the test is real.
-/
import proofs.«147069_g2000504122983038_pallasbulk_1167_2_alg».proof.Proof.Gen.Pre_finite_inputs
import proofs.«147069_g2000504122983038_pallasbulk_1167_2_alg».proof.Proof.Coeff
import Idealize.ShloMosaic.Lib.ReduceAll

noncomputable section

namespace Cert.Pre_finite_inputs.Reals

open Idealize.ShloMosaic Cert.Pre_finite_inputs

/-- The result of a reduction over every axis has exactly one index. -/
private instance : Subsingleton S_.Idx := ⟨fun a b => funext fun d => d.elim0⟩

/-- The word the precondition compares against denotes +infinity. -/
private theorem inf_word : Ideal.ofBits .f32 0x7F800000#32 = (⊤ : EReal) := by simp [Ideal.ofBits, Ideal.ieee]

/-- An extended real whose absolute value `max v (-v)` compares strictly below +infinity is a real number:
    at either infinity the absolute value is +infinity itself. -/
private theorem real_of_abs_lt_inf (v : EReal)
    (h : Ideal.cmp .olt (max v (-v)) (Ideal.ofBits .f32 0x7F800000#32) = 1#1) : ∃ r : ℝ, v = (r : EReal) := by
  rw [inf_word] at h
  have h' : max v (-v) < ⊤ := by
    by_contra hn
    have : Ideal.cmp .olt (max v (-v)) ⊤ = 0#1 := by
      show BitVec.ofBool (decide (max v (-v) < ⊤)) = 0#1
      rw [decide_eq_false hn]; rfl
    rw [this] at h
    exact absurd h (by decide)
  induction v using EReal.rec with
  | bot => simp at h'
  | coe r => exact ⟨r, rfl⟩
  | top => simp at h'

/-- Where the precondition's predicate is all ones, every entry of the activation and of the first layer's weights is real. -/
theorem allReal_of_pre [Cert.Pre_finite_inputs.Facts] (x : FVec Ideal S16x256x112x112 .f32) (w1 : FVec Ideal S256x16 .f32)
    (b1 : FVec Ideal S1x16 .f32) (w2 : FVec Ideal S16x8 .f32) (b2 : FVec Ideal S1x8 .f32)
    (h : Cert.Pre_finite_inputs.fn (F := Ideal) x w1 b1 w2 b2 = fun _ => 1#1) :
    Cert.Coeff.AllReal (s := Cert.Coeff.SX4) x ∧ Cert.Coeff.AllReal (s := Cert.Coeff.SW1) w1 := by
  have h0 := congrFun h ValueIdx.ix0
  dsimp only [fn, fn_part1] at h0
  -- the predicate is the conjunction of five "all entries below +infinity" tests; keep the first two
  change IntOp.andi (IntOp.andi (IntOp.andi (IntOp.andi _ _) _) _) _ = 1#1 at h0
  obtain ⟨h1, -⟩ := IntOp.andi_eq_one.1 h0
  obtain ⟨h2, -⟩ := IntOp.andi_eq_one.1 h1
  obtain ⟨h3, -⟩ := IntOp.andi_eq_one.1 h2
  obtain ⟨hx, hw⟩ := IntOp.andi_eq_one.1 h3
  -- a conjunction over all entries that holds, holds at each entry; there the test says the entry is real
  exact ⟨fun i => real_of_abs_lt_inf (x i) (Host.reduce_andi_all _ _ _ _ _ hx i),
    fun i => real_of_abs_lt_inf (w1 i) (Host.reduce_andi_all _ _ _ _ _ hw i)⟩

end Cert.Pre_finite_inputs.Reals

end
-- ==== Proof.lean ====
/-
  The certificate's claims for the DynamicReLU coefficient generator: a fused program (one kernel: spatial sum, first
  layer with the mean's factor applied after the contraction, rectifier, second layer, `2 σ(·) − 1`) against a
  two-stage program (a pooling kernel that accumulates lane-chunks over four spatial tiles and scales each pooled
  channel, then a kernel for the two layers).

  * The fused program's frames, at the word-level and at the ideal instance: its kernel loads whole blocks, computes,
    and stores one whole block per grid point.
  * The two-stage program's frame: its run (`TwoStage.run_result`) with the result dropped.
  * Nothing was rewritten between the fused program and its idealization.
  * Equal results over the extended reals: the fused program ends at `outLate` of the flattened activation and the
    parameters (`Fused.run_value`), the two-stage program at `outEarly` of the same (`TwoStage.resultOut_spec`); the
    two differ only in where the mean's factor meets the contraction over channels, and agree because the precondition
    makes every activation and every first-layer weight a real number (`Coeff.out_eq`, distributivity over the reals).
-/
import proofs.«147069_g2000504122983038_pallasbulk_1167_2_alg».proof.Defs
import proofs.«147069_g2000504122983038_pallasbulk_1167_2_alg».proof.Proof.Gen.Kernel
import proofs.«147069_g2000504122983038_pallasbulk_1167_2_alg».proof.Proof.Gen.Kernel.Frame
import proofs.«147069_g2000504122983038_pallasbulk_1167_2_alg».proof.Proof.Gen.KernelIdeal
import proofs.«147069_g2000504122983038_pallasbulk_1167_2_alg».proof.Proof.Gen.KernelIdeal.Frame
import proofs.«147069_g2000504122983038_pallasbulk_1167_2_alg».proof.Proof.Gen.ReferenceIdeal
import proofs.«147069_g2000504122983038_pallasbulk_1167_2_alg».proof.Proof.Gen.Pre_finite_inputs
import proofs.«147069_g2000504122983038_pallasbulk_1167_2_alg».proof.Proof.FusedValue
import proofs.«147069_g2000504122983038_pallasbulk_1167_2_alg».proof.Proof.RefRegions
import proofs.«147069_g2000504122983038_pallasbulk_1167_2_alg».proof.Proof.RefValue
import proofs.«147069_g2000504122983038_pallasbulk_1167_2_alg».proof.Proof.Reals
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.TwoStage.run_result (F := Ideal) m ρ)

/-- Both programs end with one result array: the fused program's `outLate`, the two-stage program's `outEarly`, of
    arguments that agree and are real. -/
theorem algebraic : Cert.algebraic_KernelIdeal_ReferenceIdeal := by
  intro m ρ m' ρ' hpre hagree
  refine ⟨_, Cert.KernelIdeal.Fused.run_value m ρ, ?_⟩
  refine (θ_run Cert.ReferenceIdeal.defs _ _).mono (fun _ h c => ⟨(h c).1.trans ?_, (h c).2⟩)
    (Cert.ReferenceIdeal.TwoStage.run_result (F := Ideal) m' ρ')
  obtain ⟨hx, hw⟩ := Cert.Pre_finite_inputs.Reals.allReal_of_pre _ _ _ _ _ (hpre c)
  rw [Cert.ReferenceIdeal.TwoStage.resultOut_spec, (hagree c).1, (hagree c).2.1, (hagree c).2.2.1, (hagree c).2.2.2.1, (hagree c).2.2.2.2]
  exact (Cert.Coeff.out_eq _ _ _ _ _ hx.flat hw).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
